-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S640000x32 : Shape := ⟨2, ![640000, 32]⟩
abbrev S256x256 : Shape := ⟨2, ![256, 256]⟩
abbrev S256 : Shape := ⟨1, ![256]⟩
abbrev S2x288 : Shape := ⟨2, ![2, 288]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x32 : S_.BroadcastsInDim S640000x32 (![] : Fin 0 → Fin S640000x32.rank)
  reducesTo_S640000x32_S_d0_1 : S640000x32.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x288 : S_.BroadcastsInDim S2x288 (![] : Fin 0 → Fin S2x288.rank)
  reducesTo_S2x288_S_d0_1 : S2x288.ReducesTo [0, 1] S_
  bcast_S_S2 : S_.BroadcastsInDim S2 (![] : Fin 0 → Fin S2.rank)
  reducesTo_S2_S_d0 : S2.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg2 : IVec S640000 32) (main_v28 : IVec S_ 1) (main_v33 : IVec S640000 1) : IVec S_ 1 :=
  let main_c_12 : IVec S_ 1 := constantI S_ 1 1#1
  let main_v34 : IVec S_ 1 := (fun x v => Host.reduce IntOp.andi x v reducesTo_S640000_S_d0 h_S_) main_v33 main_c_12
  let main_v35 : IVec S_ 1 := andi main_v28 main_v34
  let main_c_13 : IVec S_ 32 := constantI S_ 32 4294917296#32
  let main_v36 : IVec S640000 32 := broadcastInDim S640000 ![] bcast_S_S640000 main_c_13
  let main_v37 : IVec S640000 1 := cmpi .sge main_arg2 main_v36
  let main_c_14 : IVec S_ 32 := constantI S_ 32 50000#32
  let main_v38 : IVec S640000 32 := broadcastInDim S640000 ![] bcast_S_S640000 main_c_14
  let main_v39 : IVec S640000 1 := cmpi .slt main_arg2 main_v38
  let main_v40 : IVec S640000 1 := andi main_v37 main_v39
  let main_c_15 : IVec S_ 1 := constantI S_ 1 1#1
  let main_v41 : IVec S_ 1 := (fun x v => Host.reduce IntOp.andi x v reducesTo_S640000_S_d0 h_S_) main_v40 main_c_15
  let main_v42 : IVec S_ 1 := andi main_v35 main_v41
  main_v42

def fn_part1 {F : FTy → Type} [FloatOps F] (main_arg1 : IVec S640000 32) (main_arg2 : IVec S640000 32) (main_arg6 : FVec F S2x288 .f32) (main_arg7 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2x288 .f32 := Host.absf main_arg6
  let main_cst_6 : FVec F S_ .f32 := constant S_ .f32 0x7F800000#32
  let main_v20 : FVec F S2x288 .f32 := broadcastInDim S2x288 ![] bcast_S_S2x288 main_cst_6
  let main_v21 : IVec S2x288 1 := cmpf .olt main_v19 main_v20
  let main_c_7 : IVec S_ 1 := constantI S_ 1 1#1
  let main_v22 : IVec S_ 1 := (fun x v => Host.reduce IntOp.andi x v reducesTo_S2x288_S_d0_1 h_S_) main_v21 main_c_7
  let main_v23 : IVec S_ 1 := andi main_v18 main_v22
  let main_v24 : FVec F S2 .f32 := Host.absf main_arg7
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_c_10 : IVec S_ 32 := constantI S_ 32 4294917296#32
  let main_v29 : IVec S640000 32 := broadcastInDim S640000 ![] bcast_S_S640000 main_c_10
  let main_v30 : IVec S640000 1 := cmpi .sge main_arg1 main_v29
  let main_c_11 : IVec S_ 32 := constantI S_ 32 50000#32
  let main_v31 : IVec S640000 32 := broadcastInDim S640000 ![] bcast_S_S640000 main_c_11
  let main_v32 : IVec S640000 1 := cmpi .slt main_arg1 main_v31
  let main_v33 : IVec S640000 1 := andi main_v30 main_v32
  fn_part2 (F := F) main_arg2 main_v28 main_v33

def fn {F : FTy → Type} [FloatOps F] (main_arg0 : FVec F S50000x128 .f32) (main_arg1 : IVec S640000 32) (main_arg2 : IVec S640000 32) (main_arg3 : FVec F S640000x32 .f32) (main_arg4 : FVec F S256x256 .f32) (main_arg5 : FVec F S256 .f32) (main_arg6 : FVec F S2x288 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x32 .f32 := Host.absf main_arg3
  let main_cst_0 : FVec F S_ .f32 := constant S_ .f32 0x7F800000#32
  let main_v5 : FVec F S640000x32 .f32 := broadcastInDim S640000x32 ![] bcast_S_S640000x32 main_cst_0
  let main_v6 : IVec S640000x32 1 := cmpf .olt main_v4 main_v5
  let main_c_1 : IVec S_ 1 := constantI S_ 1 1#1
  let main_v7 : IVec S_ 1 := (fun x v => Host.reduce IntOp.andi x v reducesTo_S640000x32_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg2 main_arg6 main_arg7 main_v13 main_v16
-- ==== Kernel.lean ====
abbrev S50000x128 : Shape := ⟨2, ![50000, 128]⟩
abbrev S640000 : Shape := ⟨1, ![640000]⟩
abbrev S640000x32 : Shape := ⟨2, ![640000, 32]⟩
abbrev S256x256 : Shape := ⟨2, ![256, 256]⟩
abbrev S256 : Shape := ⟨1, ![256]⟩
abbrev S2x288 : Shape := ⟨2, ![2, 288]⟩
abbrev S2 : Shape := ⟨1, ![2]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S256x128 : Shape := ⟨2, ![256, 128]⟩
abbrev S128x256 : Shape := ⟨2, ![128, 256]⟩
abbrev S2x256 : Shape := ⟨2, ![2, 256]⟩
abbrev S256x2 : Shape := ⟨2, ![256, 2]⟩
abbrev S2x32 : Shape := ⟨2, ![2, 32]⟩
abbrev S32x2 : Shape := ⟨2, ![32, 2]⟩
abbrev S640000x2 : Shape := ⟨2, ![640000, 2]⟩
abbrev S2560x128 : Shape := ⟨2, ![2560, 128]⟩
abbrev S2560x32 : Shape := ⟨2, ![2560, 32]⟩
abbrev S2560x2 : Shape := ⟨2, ![2560, 2]⟩
abbrev S2560x256 : Shape := ⟨2, ![2560, 256]⟩
abbrev S1x256 : Shape := ⟨2, ![1, 256]⟩
abbrev S1x2 : Shape := ⟨2, ![1, 2]⟩

abbrev nBuf : Space → Nat
  | .hbm => 67
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000x32, .f32⟩
  | .hbm, ⟨4, _⟩ => ⟨S256x256, .f32⟩
  | .hbm, ⟨5, _⟩ => ⟨S256, .f32⟩
  | .hbm, ⟨6, _⟩ => ⟨S2x288, .f32⟩
  | .hbm, ⟨7, _⟩ => ⟨S2, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S1, .i32⟩
  | .hbm, ⟨17, _⟩ => ⟨S_, .i32⟩
  | .hbm, ⟨18, _⟩ => ⟨S640000x1, .i32⟩
  | .hbm, ⟨19, _⟩ => ⟨S640000x1, .i1⟩
  | .hbm, ⟨20, _⟩ => ⟨S1x1, .i32⟩
  | .hbm, ⟨21, _⟩ => ⟨S640000x1, .i32⟩
  | .hbm, ⟨22, _⟩ => ⟨S640000x1, .i1⟩
  | .hbm, ⟨23, _⟩ => ⟨S640000x1, .i1⟩
  | .hbm, ⟨24, _⟩ => ⟨S_, .i1⟩
  | .hbm, ⟨25, _⟩ => ⟨S640000, .i1⟩
  | .hbm, ⟨26, _⟩ => ⟨S640000x128, .f32⟩
  | .hbm, ⟨27, _⟩ => ⟨S640000x128, .i1⟩
  | .hbm, ⟨28, _⟩ => ⟨S_, .f32⟩
  | .hbm, ⟨29, _⟩ => ⟨S640000x128, .f32⟩
  | .hbm, ⟨30, _⟩ => ⟨S640000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S1, .i32⟩
  | .hbm, ⟨40, _⟩ => ⟨S_, .i32⟩
  | .hbm, ⟨41, _⟩ => ⟨S640000x1, .i32⟩
  | .hbm, ⟨42, _⟩ => ⟨S640000x1, .i1⟩
  | .hbm, ⟨43, _⟩ => ⟨S1x1, .i32⟩
  | .hbm, ⟨44, _⟩ => ⟨S640000x1, .i32⟩
  | .hbm, ⟨45, _⟩ => ⟨S640000x1, .i1⟩
  | .hbm, ⟨46, _⟩ => ⟨S640000x1, .i1⟩
  | .hbm, ⟨47, _⟩ => ⟨S_, .i1⟩
  | .hbm, ⟨48, _⟩ => ⟨S640000, .i1⟩
  | .hbm, ⟨49, _⟩ => ⟨S640000x128, .f32⟩
  | .hbm, ⟨50, _⟩ => ⟨S640000x128, .i1⟩
  | .hbm, ⟨51, _⟩ => ⟨S_, .f32⟩
  | .hbm, ⟨52, _⟩ => ⟨S640000x128, .f32⟩
  | .hbm, ⟨53, _⟩ => ⟨S640000x128, .f32⟩
  | .hbm, ⟨54, _⟩ => ⟨S256x128, .f32⟩
  | .hbm, ⟨55, _⟩ => ⟨S128x256, .f32⟩
  | .hbm, ⟨56, _⟩ => ⟨S128x256, .bf16⟩
  | .hbm, ⟨57, _⟩ => ⟨S256x128, .f32⟩
  | .hbm, ⟨58, _⟩ => ⟨S128x256, .f32⟩
  | .hbm, ⟨59, _⟩ => ⟨S128x256, .bf16⟩
  | .hbm, ⟨60, _⟩ => ⟨S2x256, .f32⟩
  | .hbm, ⟨61, _⟩ => ⟨S256x2, .f32⟩
  | .hbm, ⟨62, _⟩ => ⟨S256x2, .bf16⟩
  | .hbm, ⟨63, _⟩ => ⟨S2x32, .f32⟩
  | .hbm, ⟨64, _⟩ => ⟨S32x2, .f32⟩
  | .hbm, ⟨65, _⟩ => ⟨S32x2, .bf16⟩
  | .hbm, ⟨66, _⟩ => ⟨S640000x2, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S2560x32, .f32⟩
  | .local _ .vmem, ⟨5, _⟩ => ⟨S2560x32, .f32⟩
  | .local _ .vmem, ⟨6, _⟩ => ⟨S128x256, .bf16⟩
  | .local _ .vmem, ⟨7, _⟩ => ⟨S128x256, .bf16⟩
  | .local _ .vmem, ⟨8, _⟩ => ⟨S256, .f32⟩
  | .local _ .vmem, ⟨9, _⟩ => ⟨S256x2, .bf16⟩
  | .local _ .vmem, ⟨10, _⟩ => ⟨S32x2, .bf16⟩
  | .local _ .vmem, ⟨11, _⟩ => ⟨S2, .f32⟩
  | .local _ .vmem, ⟨12, _⟩ => ⟨S2560x2, .f32⟩
  | .local _ .vmem, ⟨13, _⟩ => ⟨S2560x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2560x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S256x256_S256x128_0_0 : S256x256.Slices ![0, 0] S256x128
  transposes_S256x128_S128x256_1_0 : S256x128.Transposes [1, 0] S128x256
  bitsLt_bf16_f32 : FTy.bits .bf16 < FTy.bits .f32
  slices_S256x256_S256x128_0_128 : S256x256.Slices ![0, 128] S256x128
  slices_S2x288_S2x256_0_0 : S2x288.Slices ![0, 0] S2x256
  transposes_S2x256_S256x2_1_0 : S2x256.Transposes [1, 0] S256x2
  slices_S2x288_S2x32_0_256 : S2x288.Slices ![0, 256] S2x32
  transposes_S2x32_S32x2_1_0 : S2x32.Transposes [1, 0] S32x2
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2560x256 : S1x256.Broadcasts S2560x256
  inb_S2560x32_S2560x32_0_0 : ∀ a, (![0, 0] : Fin 2 → Nat) a + S2560x32.size a ≤ S2560x32.size a
  h_S2560x32 : 0 < S2560x32.numel
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S2_S2_0 : ∀ a, (![0] : Fin 1 → Nat) a + S2.size a ≤ S2.size a
  h_S2 : 0 < S2.numel
  shapeCasts_S2_S1x2 : S2.ShapeCasts S1x2
  broadcasts_S1x2_S2560x2 : S1x2.Broadcasts S2560x2
  inb_S2560x2_S2560x2_0_0 : ∀ a, (![0, 0] : Fin 2 → Nat) a + S2560x2.size a ≤ S2560x2.size a
  h_S2560x2 : 0 < S2560x2.numel
  gather_S50000x128_S640000x1_S640000x128_1_0_n_n_0_1_1128_wf : GatherDims.WF S50000x128 S640000x1 S640000x128 [1] [0] [] [0] [] 1 ![1, 128]
  dot_S2560x128_S128x256_S2560x256_1_0_0_1_n_n_wf : DotDims.WF S2560x128 S128x256 S2560x256 [1] [0] [0] [1] [] []
  dot_S2560x256_S256x2_S2560x2_1_0_0_1_n_n_wf : DotDims.WF S2560x256 S256x2 S2560x2 [1] [0] [0] [1] [] []
  dot_S2560x32_S32x2_S2560x2_1_0_0_1_n_n_wf : DotDims.WF S2560x32 S32x2 S2560x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S640000x128.size a
  hwx0_0 : ∀ i : grid0.Coords, EltTy.bits .f32 = 32 ∨ (Rect.block (s := S640000x128) S2560x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .f32 = 32 ∨ (Rect.block (s := S640000x128) S2560x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x32.size a ≤ S640000x32.size a
  hwx0_2 : ∀ i : grid0.Coords, EltTy.bits .f32 = 32 ∨ (Rect.block (s := S640000x32) S2560x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x2.size a ≤ S256x2.size a
  hwx0_6 : ∀ i : grid0.Coords, EltTy.bits .bf16 = 32 ∨ (Rect.block (s := S256x2) S256x2.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x2.size a ≤ S32x2.size a
  hwx0_7 : ∀ i : grid0.Coords, EltTy.bits .bf16 = 32 ∨ (Rect.block (s := S32x2) S32x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2560x2.size a ≤ S640000x2.size a
  hwx0_9 : ∀ i : grid0.Coords, EltTy.bits .f32 = 32 ∨ (Rect.block (s := S640000x2) S2560x2.size (cc0_transform_9 i) (hinb0_9 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S2560x128_S128x256_S2560x256_1_0_0_1_n_n : DotDims S2560x128 S128x256 S2560x256 where
  lhsContracting := [1]
  rhsContracting := [0]
  lhsNonContracting := [0]
  rhsNonContracting := [1]
  lhsBatch := []
  rhsBatch := []
  wf := dot_S2560x128_S128x256_S2560x256_1_0_0_1_n_n_wf
def dot_S2560x256_S256x2_S2560x2_1_0_0_1_n_n : DotDims S2560x256 S256x2 S2560x2 where
  lhsContracting := [1]
  rhsContracting := [0]
  lhsNonContracting := [0]
  rhsNonContracting := [1]
  lhsBatch := []
  rhsBatch := []
  wf := dot_S2560x256_S256x2_S2560x2_1_0_0_1_n_n_wf
def dot_S2560x32_S32x2_S2560x2_1_0_0_1_n_n : DotDims S2560x32 S32x2 S2560x2 where
  lhsContracting := [1]
  rhsContracting := [0]
  lhsNonContracting := [0]
  rhsNonContracting := [1]
  lhsBatch := []
  rhsBatch := []
  wf := dot_S2560x32_S32x2_S2560x2_1_0_0_1_n_n_wf

abbrev win0_0 : Pipeline.Window sig grid0 :=
  Pipeline.Window.ofSpec (Memref.whole main_v0) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2560x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S32x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S2560x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000 : Shape := ⟨1, ![640000]⟩
abbrev S640000x32 : Shape := ⟨2, ![640000, 32]⟩
abbrev S256x256 : Shape := ⟨2, ![256, 256]⟩
abbrev S256 : Shape := ⟨1, ![256]⟩
abbrev S2x288 : Shape := ⟨2, ![2, 288]⟩
abbrev S2 : Shape := ⟨1, ![2]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x256 : Shape := ⟨2, ![1, 256]⟩
abbrev S640000x288 : Shape := ⟨2, ![640000, 288]⟩
abbrev S288x2 : Shape := ⟨2, ![288, 2]⟩
abbrev S640000x2 : Shape := ⟨2, ![640000, 2]⟩
abbrev S1x2 : Shape := ⟨2, ![1, 2]⟩

abbrev nBuf : Space → Nat
  | .hbm => 38
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000x32, .f32⟩
  | .hbm, ⟨4, _⟩ => ⟨S256x256, .f32⟩
  | .hbm, ⟨5, _⟩ => ⟨S256, .f32⟩
  | .hbm, ⟨6, _⟩ => ⟨S2x288, .f32⟩
  | .hbm, ⟨7, _⟩ => ⟨S2, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x256, .f32⟩
  | .hbm, ⟨27, _⟩ => ⟨S256x256, .f32⟩
  | .hbm, ⟨28, _⟩ => ⟨S640000x256, .f32⟩
  | .hbm, ⟨29, _⟩ => ⟨S1x256, .f32⟩
  | .hbm, ⟨30, _⟩ => ⟨S640000x256, .f32⟩
  | .hbm, ⟨31, _⟩ => ⟨S640000x256, .f32⟩
  | .hbm, ⟨32, _⟩ => ⟨S640000x288, .f32⟩
  | .hbm, ⟨33, _⟩ => ⟨S288x2, .f32⟩
  | .hbm, ⟨34, _⟩ => ⟨S640000x2, .f32⟩
  | .hbm, ⟨35, _⟩ => ⟨S1x2, .f32⟩
  | .hbm, ⟨36, _⟩ => ⟨S640000x2, .f32⟩
  | .hbm, ⟨37, _⟩ => ⟨S640000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  transposes_S256x256_S256x256_1_0 : S256x256.Transposes [1, 0] S256x256
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  concatenates_S640000x256_S640000x32_S640000x288_d1 : Shape.Concatenates [S640000x256, S640000x32] S640000x288 1
  transposes_S2x288_S288x2_1_0 : S2x288.Transposes [1, 0] S288x2
  bcast_S2_S1x2_1 : S2.BroadcastsInDim S1x2 (![1] : Fin 1 → Fin S1x2.rank)
  bcast_S1x2_S640000x2_0_1 : S1x2.BroadcastsInDim S640000x2 (![0, 1] : Fin 2 → Fin S640000x2.rank)
  gather_S50000x128_S640000x1_S640000x128_1_0_n_n_0_1_1128_wf : GatherDims.WF S50000x128 S640000x1 S640000x128 [1] [0] [] [0] [] 1 ![1, 128]
  dot_S640000x256_S256x256_S640000x256_1_0_0_1_n_n_wf : DotDims.WF S640000x256 S256x256 S640000x256 [1] [0] [0] [1] [] []
  dot_S640000x288_S288x2_S640000x2_1_0_0_1_n_n_wf : DotDims.WF S640000x288 S288x2 S640000x2 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x256_S640000x256_1_0_0_1_n_n : DotDims S640000x256 S256x256 S640000x256 where
  lhsContracting := [1]
  rhsContracting := [0]
  lhsNonContracting := [0]
  rhsNonContracting := [1]
  lhsBatch := []
  rhsBatch := []
  wf := dot_S640000x256_S256x256_S640000x256_1_0_0_1_n_n_wf
def dot_S640000x288_S288x2_S640000x2_1_0_0_1_n_n : DotDims S640000x288 S288x2 S640000x2 where
  lhsContracting := [1]
  rhsContracting := [0]
  lhsNonContracting := [0]
  rhsNonContracting := [1]
  lhsBatch := []
  rhsBatch := []
  wf := dot_S640000x288_S288x2_S640000x2_1_0_0_1_n_n_wf

class Facts : Prop extends Facts₀ where

variable [Facts]
-- ==== Proof.EdgeMlp.lean ====
/-
  The edge scorer as ONE function of its operands, at the extended reals.

  For an edge `r` with endpoint feature rows `hu r`, `hv r` (128 numbers each) and edge embedding `e r` (32 numbers),
  the hidden layer is  hidden r j = Σ_{k<128} hu r k · A k j + Σ_{k<128} hv r k · B k j + b1 j   (j < 256)
  and the score is     score r c  = Σ_{j<256} hidden r j · C j c + Σ_{k<32} e r k · D k c + b2 c     (c < 2),
  where `A`, `B` are the two halves of the first layer's weight matrix, transposed, and `C`, `D` the two parts of the
  second layer's. `A`, `B`, `C`, `D` are read off the torch-style weights `W1 : [256, 256]`, `W2 : [2, 288]` by
  `firstHalfT`, `secondHalfT`, `hiddenPartT`, `embedPartT`.

  Also here: a sum over 256 (or 288) positions is the sum over its first 128 (256) plus the sum over the remaining
  128 (32) — the one law that joins a product with a concatenated row to the sum of two products with its parts. It
  holds in any additive commutative monoid, so on the extended reals it asks nothing of the summands' finiteness.
-/
import Idealize.ShloMosaic.Lib.ValueIdx
import Mathlib.Algebra.BigOperators.Fin

noncomputable section

open scoped BigOperators

namespace Cert.EdgeMlp

open Idealize.ShloMosaic Idealize.ShloMosaic.ValueIdx

/-! ## Positions in a row of 256 = 128 + 128 and in a row of 288 = 256 + 32 -/

/-- Position `k` of the first half of a row of 256. -/
def lo (k : Fin 128) : Fin 256 := ⟨k.val, by omega⟩
/-- Position `k` of the second half of a row of 256. -/
def hi (k : Fin 128) : Fin 256 := ⟨128 + k.val, by omega⟩
/-- Position `j` of the first 256 of a row of 288. -/
def hid (j : Fin 256) : Fin 288 := ⟨j.val, by omega⟩
/-- Position `k` of the last 32 of a row of 288. -/
def emb (k : Fin 32) : Fin 288 := ⟨256 + k.val, by omega⟩

/-- A sum over 256 positions is the sum over the first half plus the sum over the second half. -/
theorem sum_halves {M : Type*} [AddCommMonoid M] (f : Fin 256 → M) :
    ∑ k, f k = (∑ k : Fin 128, f (lo k)) + ∑ k : Fin 128, f (hi k) :=
  Fin.sum_univ_add (a := 128) (b := 128) f

/-- A sum over 288 positions is the sum over the first 256 plus the sum over the last 32. -/
theorem sum_hid_emb {M : Type*} [AddCommMonoid M] (f : Fin 288 → M) :
    ∑ j, f j = (∑ j : Fin 256, f (hid j)) + ∑ k : Fin 32, f (emb k) :=
  Fin.sum_univ_add (a := 256) (b := 32) f

/-! ## The scorer over staged weights -/

section
variable {E : Nat}

/-- Hidden unit `j` of edge `r`. -/
def hiddenAt (hu hv : (⟨2, ![E, 128]⟩ : Shape).Idx → EReal) (A B : (⟨2, ![128, 256]⟩ : Shape).Idx → EReal)
    (b1 : (⟨1, ![256]⟩ : Shape).Idx → EReal) (r : Fin E) (j : Fin 256) : EReal :=
  (∑ k : Fin 128, hu (ix2 r k) * A (ix2 k j)) + (∑ k : Fin 128, hv (ix2 r k) * B (ix2 k j)) + b1 (ix1 j)

/-- Score of edge `r` for class `c`. -/
def scoreAt (hu hv : (⟨2, ![E, 128]⟩ : Shape).Idx → EReal) (e : (⟨2, ![E, 32]⟩ : Shape).Idx → EReal)
    (A B : (⟨2, ![128, 256]⟩ : Shape).Idx → EReal) (b1 : (⟨1, ![256]⟩ : Shape).Idx → EReal)
    (C : (⟨2, ![256, 2]⟩ : Shape).Idx → EReal) (D : (⟨2, ![32, 2]⟩ : Shape).Idx → EReal)
    (b2 : (⟨1, ![2]⟩ : Shape).Idx → EReal) (r : Fin E) (c : Fin 2) : EReal :=
  (∑ j : Fin 256, hiddenAt hu hv A B b1 r j * C (ix2 j c)) + (∑ k : Fin 32, e (ix2 r k) * D (ix2 k c)) + b2 (ix1 c)

/-- The scores of all edges, as an array `[E, 2]`. -/
def score (hu hv : (⟨2, ![E, 128]⟩ : Shape).Idx → EReal) (e : (⟨2, ![E, 32]⟩ : Shape).Idx → EReal)
    (A B : (⟨2, ![128, 256]⟩ : Shape).Idx → EReal) (b1 : (⟨1, ![256]⟩ : Shape).Idx → EReal)
    (C : (⟨2, ![256, 2]⟩ : Shape).Idx → EReal) (D : (⟨2, ![32, 2]⟩ : Shape).Idx → EReal)
    (b2 : (⟨1, ![2]⟩ : Shape).Idx → EReal) : (⟨2, ![E, 2]⟩ : Shape).Idx → EReal :=
  fun i => scoreAt hu hv e A B b1 C D b2 ⟨(i 0).val, idx2_lt0 i⟩ ⟨(i 1).val, idx2_lt1 i⟩

theorem score_ix2 (hu hv : (⟨2, ![E, 128]⟩ : Shape).Idx → EReal) (e : (⟨2, ![E, 32]⟩ : Shape).Idx → EReal)
    (A B : (⟨2, ![128, 256]⟩ : Shape).Idx → EReal) (b1 : (⟨1, ![256]⟩ : Shape).Idx → EReal)
    (C : (⟨2, ![256, 2]⟩ : Shape).Idx → EReal) (D : (⟨2, ![32, 2]⟩ : Shape).Idx → EReal)
    (b2 : (⟨1, ![2]⟩ : Shape).Idx → EReal) (r : Fin E) (c : Fin 2) :
    score hu hv e A B b1 C D b2 (ix2 r c) = scoreAt hu hv e A B b1 C D b2 r c := rfl

end

/-! ## The staged weights, read off the torch-style matrices -/

/-- First half of `W1`'s columns, transposed: entry `(k, j)` is `W1 j k`. -/
def firstHalfT (W1 : (⟨2, ![256, 256]⟩ : Shape).Idx → EReal) : (⟨2, ![128, 256]⟩ : Shape).Idx → EReal :=
  fun i => W1 (ix2 (⟨(i 1).val, idx2_lt1 i⟩ : Fin 256) (lo ⟨(i 0).val, idx2_lt0 i⟩))
/-- Second half of `W1`'s columns, transposed: entry `(k, j)` is `W1 j (128 + k)`. -/
def secondHalfT (W1 : (⟨2, ![256, 256]⟩ : Shape).Idx → EReal) : (⟨2, ![128, 256]⟩ : Shape).Idx → EReal :=
  fun i => W1 (ix2 (⟨(i 1).val, idx2_lt1 i⟩ : Fin 256) (hi ⟨(i 0).val, idx2_lt0 i⟩))
/-- `W2`'s first 256 columns, transposed: entry `(j, c)` is `W2 c j`. -/
def hiddenPartT (W2 : (⟨2, ![2, 288]⟩ : Shape).Idx → EReal) : (⟨2, ![256, 2]⟩ : Shape).Idx → EReal :=
  fun i => W2 (ix2 (⟨(i 1).val, idx2_lt1 i⟩ : Fin 2) (hid ⟨(i 0).val, idx2_lt0 i⟩))
/-- `W2`'s last 32 columns, transposed: entry `(k, c)` is `W2 c (256 + k)`. -/
def embedPartT (W2 : (⟨2, ![2, 288]⟩ : Shape).Idx → EReal) : (⟨2, ![32, 2]⟩ : Shape).Idx → EReal :=
  fun i => W2 (ix2 (⟨(i 1).val, idx2_lt1 i⟩ : Fin 2) (emb ⟨(i 0).val, idx2_lt0 i⟩))

/-- The scorer over the torch-style weights: what both programs compute from the gathered rows. -/
def scores {E : Nat} (hu hv : (⟨2, ![E, 128]⟩ : Shape).Idx → EReal) (e : (⟨2, ![E, 32]⟩ : Shape).Idx → EReal)
    (W1 : (⟨2, ![256, 256]⟩ : Shape).Idx → EReal) (b1 : (⟨1, ![256]⟩ : Shape).Idx → EReal)
    (W2 : (⟨2, ![2, 288]⟩ : Shape).Idx → EReal) (b2 : (⟨1, ![2]⟩ : Shape).Idx → EReal) :
    (⟨2, ![E, 2]⟩ : Shape).Idx → EReal :=
  score hu hv e (firstHalfT W1) (secondHalfT W1) b1 (hiddenPartT W2) (embedPartT W2) b2

end Cert.EdgeMlp

end
-- ==== Proof.BodyValue.lean ====
/-
  The kernel body's one stored value, read at an index, at the extended reals.

  With floats read as extended reals a change of float format is the identity, and a matrix product accumulated into
  the zero array is the plain sum of products over the contracted axis. So the value the body stores at row `p`,
  column `q` is
    Σ_{j<256} (Σ_{k<128} hu p k · A k j + Σ_{k<128} hv p k · B k j + b1 j) · C j q + Σ_{k<32} e p k · D k q + b2 q,
  which is the edge scorer's `scoreAt`.
-/
import proofs.«412462_j38087769981264_2_alg».proof.Proof.Gen.KernelIdeal.Skeleton
import proofs.«412462_j38087769981264_2_alg».proof.Proof.EdgeMlp
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## The first layer's product, [2560,128] by [128,256]: operand indices, axis by axis -/

/-- The left operand's row is the output's row. -/
theorem lhs_layer1_0 (i : S2560x256.Idx) (q : dot_S2560x128_S128x256_S2560x256_1_0_0_1_n_n.contr.Idx) :
    (dot_S2560x128_S128x256_S2560x256_1_0_0_1_n_n.lhsIdx i q 0).val = (i 0).val := by
  unfold DotDims.lhsIdx
  rw [dif_neg (show ¬(0 : Fin S2560x128.rank) ∈ dot_S2560x128_S128x256_S2560x256_1_0_0_1_n_n.lhsBatch by decide), dif_pos (show (0 : Fin S2560x128.rank) ∈ dot_S2560x128_S128x256_S2560x256_1_0_0_1_n_n.lhsNonContracting by decide)]
  rfl
/-- The left operand's column is the contracted coordinate. -/
theorem lhs_layer1_1 (i : S2560x256.Idx) (q : dot_S2560x128_S128x256_S2560x256_1_0_0_1_n_n.contr.Idx) :
    (dot_S2560x128_S128x256_S2560x256_1_0_0_1_n_n.lhsIdx i q 1).val = (q ⟨0, by decide⟩).val :=
  dot_S2560x128_S128x256_S2560x256_1_0_0_1_n_n.lhsIdx_val_of_single rfl i q
/-- The right operand's row is the contracted coordinate. -/
theorem rhs_layer1_0 (i : S2560x256.Idx) (q : dot_S2560x128_S128x256_S2560x256_1_0_0_1_n_n.contr.Idx) :
    (dot_S2560x128_S128x256_S2560x256_1_0_0_1_n_n.rhsIdx i q 0).val = (q ⟨0, by decide⟩).val :=
  dot_S2560x128_S128x256_S2560x256_1_0_0_1_n_n.rhsIdx_val_of_single rfl i q
/-- The right operand's column is the output's column. -/
theorem rhs_layer1_1 (i : S2560x256.Idx) (q : dot_S2560x128_S128x256_S2560x256_1_0_0_1_n_n.contr.Idx) :
    (dot_S2560x128_S128x256_S2560x256_1_0_0_1_n_n.rhsIdx i q 1).val = (i 1).val := by
  unfold DotDims.rhsIdx
  rw [dif_neg (show ¬(1 : Fin S128x256.rank) ∈ dot_S2560x128_S128x256_S2560x256_1_0_0_1_n_n.rhsBatch by decide), dif_pos (show (1 : Fin S128x256.rank) ∈ dot_S2560x128_S128x256_S2560x256_1_0_0_1_n_n.rhsNonContracting by decide)]
  rfl

/-- A [2560,128] by [128,256] product into the zero array, at `(p, j)`, is `Σ_{k<128} l p k · r k j`. -/
theorem layer1_apply (l : FVec Ideal S2560x128 .bf16) (r : FVec Ideal S128x256 .bf16) (p : Fin 2560) (j : Fin 256) :
    matmul (F := Ideal) dot_S2560x128_S128x256_S2560x256_1_0_0_1_n_n none l r (constant (F := Ideal) S2560x256 .f32 0x00000000#32) (ix2 p j)
      = ∑ k : Fin 128, l (ix2 p k) * r (ix2 k j) := by
  simp only [matmul]
  rw [Ideal.matmul_constant_zero_apply, ← Equiv.sum_comp (contrEquiv1 dot_S2560x128_S128x256_S2560x256_1_0_0_1_n_n 128 rfl rfl).symm]
  refine Finset.sum_congr rfl fun k _ => ?_
  have hk := contrEquiv1_symm_val dot_S2560x128_S128x256_S2560x256_1_0_0_1_n_n 128 rfl rfl k
  have el : dot_S2560x128_S128x256_S2560x256_1_0_0_1_n_n.lhsIdx (ix2 p j) ((contrEquiv1 dot_S2560x128_S128x256_S2560x256_1_0_0_1_n_n 128 rfl rfl).symm k) = ix2 p k := funext fun a => Fin.ext (by
    match a with
    | ⟨0, _⟩ => exact lhs_layer1_0 _ _
    | ⟨1, _⟩ => exact (lhs_layer1_1 _ _).trans hk)
  have er : dot_S2560x128_S128x256_S2560x256_1_0_0_1_n_n.rhsIdx (ix2 p j) ((contrEquiv1 dot_S2560x128_S128x256_S2560x256_1_0_0_1_n_n 128 rfl rfl).symm k) = ix2 k j := funext fun a => Fin.ext (by
    match a with
    | ⟨0, _⟩ => exact (rhs_layer1_0 _ _).trans hk
    | ⟨1, _⟩ => exact rhs_layer1_1 _ _)
  rw [el, er]

/-! ## The second layer's product with the hidden units, [2560,256] by [256,2]: operand indices, axis by axis -/

/-- The left operand's row is the output's row. -/
theorem lhs_layer2_0 (i : S2560x2.Idx) (q : dot_S2560x256_S256x2_S2560x2_1_0_0_1_n_n.contr.Idx) :
    (dot_S2560x256_S256x2_S2560x2_1_0_0_1_n_n.lhsIdx i q 0).val = (i 0).val := by
  unfold DotDims.lhsIdx
  rw [dif_neg (show ¬(0 : Fin S2560x256.rank) ∈ dot_S2560x256_S256x2_S2560x2_1_0_0_1_n_n.lhsBatch by decide), dif_pos (show (0 : Fin S2560x256.rank) ∈ dot_S2560x256_S256x2_S2560x2_1_0_0_1_n_n.lhsNonContracting by decide)]
  rfl
/-- The left operand's column is the contracted coordinate. -/
theorem lhs_layer2_1 (i : S2560x2.Idx) (q : dot_S2560x256_S256x2_S2560x2_1_0_0_1_n_n.contr.Idx) :
    (dot_S2560x256_S256x2_S2560x2_1_0_0_1_n_n.lhsIdx i q 1).val = (q ⟨0, by decide⟩).val :=
  dot_S2560x256_S256x2_S2560x2_1_0_0_1_n_n.lhsIdx_val_of_single rfl i q
/-- The right operand's row is the contracted coordinate. -/
theorem rhs_layer2_0 (i : S2560x2.Idx) (q : dot_S2560x256_S256x2_S2560x2_1_0_0_1_n_n.contr.Idx) :
    (dot_S2560x256_S256x2_S2560x2_1_0_0_1_n_n.rhsIdx i q 0).val = (q ⟨0, by decide⟩).val :=
  dot_S2560x256_S256x2_S2560x2_1_0_0_1_n_n.rhsIdx_val_of_single rfl i q
/-- The right operand's column is the output's column. -/
theorem rhs_layer2_1 (i : S2560x2.Idx) (q : dot_S2560x256_S256x2_S2560x2_1_0_0_1_n_n.contr.Idx) :
    (dot_S2560x256_S256x2_S2560x2_1_0_0_1_n_n.rhsIdx i q 1).val = (i 1).val := by
  unfold DotDims.rhsIdx
  rw [dif_neg (show ¬(1 : Fin S256x2.rank) ∈ dot_S2560x256_S256x2_S2560x2_1_0_0_1_n_n.rhsBatch by decide), dif_pos (show (1 : Fin S256x2.rank) ∈ dot_S2560x256_S256x2_S2560x2_1_0_0_1_n_n.rhsNonContracting by decide)]
  rfl

/-- A [2560,256] by [256,2] product into the zero array, at `(p, c)`, is `Σ_{j<256} l p j · r j c`. -/
theorem layer2_apply (l : FVec Ideal S2560x256 .bf16) (r : FVec Ideal S256x2 .bf16) (p : Fin 2560) (j : Fin 2) :
    matmul (F := Ideal) dot_S2560x256_S256x2_S2560x2_1_0_0_1_n_n none l r (constant (F := Ideal) S2560x2 .f32 0x00000000#32) (ix2 p j)
      = ∑ k : Fin 256, l (ix2 p k) * r (ix2 k j) := by
  simp only [matmul]
  rw [Ideal.matmul_constant_zero_apply, ← Equiv.sum_comp (contrEquiv1 dot_S2560x256_S256x2_S2560x2_1_0_0_1_n_n 256 rfl rfl).symm]
  refine Finset.sum_congr rfl fun k _ => ?_
  have hk := contrEquiv1_symm_val dot_S2560x256_S256x2_S2560x2_1_0_0_1_n_n 256 rfl rfl k
  have el : dot_S2560x256_S256x2_S2560x2_1_0_0_1_n_n.lhsIdx (ix2 p j) ((contrEquiv1 dot_S2560x256_S256x2_S2560x2_1_0_0_1_n_n 256 rfl rfl).symm k) = ix2 p k := funext fun a => Fin.ext (by
    match a with
    | ⟨0, _⟩ => exact lhs_layer2_0 _ _
    | ⟨1, _⟩ => exact (lhs_layer2_1 _ _).trans hk)
  have er : dot_S2560x256_S256x2_S2560x2_1_0_0_1_n_n.rhsIdx (ix2 p j) ((contrEquiv1 dot_S2560x256_S256x2_S2560x2_1_0_0_1_n_n 256 rfl rfl).symm k) = ix2 k j := funext fun a => Fin.ext (by
    match a with
    | ⟨0, _⟩ => exact (rhs_layer2_0 _ _).trans hk
    | ⟨1, _⟩ => exact rhs_layer2_1 _ _)
  rw [el, er]

/-! ## The second layer's product with the edge embedding, [2560,32] by [32,2]: operand indices, axis by axis -/

/-- The left operand's row is the output's row. -/
theorem lhs_embed_0 (i : S2560x2.Idx) (q : dot_S2560x32_S32x2_S2560x2_1_0_0_1_n_n.contr.Idx) :
    (dot_S2560x32_S32x2_S2560x2_1_0_0_1_n_n.lhsIdx i q 0).val = (i 0).val := by
  unfold DotDims.lhsIdx
  rw [dif_neg (show ¬(0 : Fin S2560x32.rank) ∈ dot_S2560x32_S32x2_S2560x2_1_0_0_1_n_n.lhsBatch by decide), dif_pos (show (0 : Fin S2560x32.rank) ∈ dot_S2560x32_S32x2_S2560x2_1_0_0_1_n_n.lhsNonContracting by decide)]
  rfl
/-- The left operand's column is the contracted coordinate. -/
theorem lhs_embed_1 (i : S2560x2.Idx) (q : dot_S2560x32_S32x2_S2560x2_1_0_0_1_n_n.contr.Idx) :
    (dot_S2560x32_S32x2_S2560x2_1_0_0_1_n_n.lhsIdx i q 1).val = (q ⟨0, by decide⟩).val :=
  dot_S2560x32_S32x2_S2560x2_1_0_0_1_n_n.lhsIdx_val_of_single rfl i q
/-- The right operand's row is the contracted coordinate. -/
theorem rhs_embed_0 (i : S2560x2.Idx) (q : dot_S2560x32_S32x2_S2560x2_1_0_0_1_n_n.contr.Idx) :
    (dot_S2560x32_S32x2_S2560x2_1_0_0_1_n_n.rhsIdx i q 0).val = (q ⟨0, by decide⟩).val :=
  dot_S2560x32_S32x2_S2560x2_1_0_0_1_n_n.rhsIdx_val_of_single rfl i q
/-- The right operand's column is the output's column. -/
theorem rhs_embed_1 (i : S2560x2.Idx) (q : dot_S2560x32_S32x2_S2560x2_1_0_0_1_n_n.contr.Idx) :
    (dot_S2560x32_S32x2_S2560x2_1_0_0_1_n_n.rhsIdx i q 1).val = (i 1).val := by
  unfold DotDims.rhsIdx
  rw [dif_neg (show ¬(1 : Fin S32x2.rank) ∈ dot_S2560x32_S32x2_S2560x2_1_0_0_1_n_n.rhsBatch by decide), dif_pos (show (1 : Fin S32x2.rank) ∈ dot_S2560x32_S32x2_S2560x2_1_0_0_1_n_n.rhsNonContracting by decide)]
  rfl

/-- A [2560,32] by [32,2] product into the zero array, at `(p, c)`, is `Σ_{k<32} l p k · r k c`. -/
theorem embed_apply (l : FVec Ideal S2560x32 .bf16) (r : FVec Ideal S32x2 .bf16) (p : Fin 2560) (j : Fin 2) :
    matmul (F := Ideal) dot_S2560x32_S32x2_S2560x2_1_0_0_1_n_n none l r (constant (F := Ideal) S2560x2 .f32 0x00000000#32) (ix2 p j)
      = ∑ k : Fin 32, l (ix2 p k) * r (ix2 k j) := by
  simp only [matmul]
  rw [Ideal.matmul_constant_zero_apply, ← Equiv.sum_comp (contrEquiv1 dot_S2560x32_S32x2_S2560x2_1_0_0_1_n_n 32 rfl rfl).symm]
  refine Finset.sum_congr rfl fun k _ => ?_
  have hk := contrEquiv1_symm_val dot_S2560x32_S32x2_S2560x2_1_0_0_1_n_n 32 rfl rfl k
  have el : dot_S2560x32_S32x2_S2560x2_1_0_0_1_n_n.lhsIdx (ix2 p j) ((contrEquiv1 dot_S2560x32_S32x2_S2560x2_1_0_0_1_n_n 32 rfl rfl).symm k) = ix2 p k := funext fun a => Fin.ext (by
    match a with
    | ⟨0, _⟩ => exact lhs_embed_0 _ _
    | ⟨1, _⟩ => exact (lhs_embed_1 _ _).trans hk)
  have er : dot_S2560x32_S32x2_S2560x2_1_0_0_1_n_n.rhsIdx (ix2 p j) ((contrEquiv1 dot_S2560x32_S32x2_S2560x2_1_0_0_1_n_n 32 rfl rfl).symm k) = ix2 k j := funext fun a => Fin.ext (by
    match a with
    | ⟨0, _⟩ => exact (rhs_embed_0 _ _).trans hk
    | ⟨1, _⟩ => exact rhs_embed_1 _ _)
  rw [el, er]

/-! ## The hidden layer -/

/-- The first layer's value, changed to the narrower float format, at row `p` and hidden unit `j`: the two products
    of the endpoint rows with the two halves of the first weight matrix, plus the bias row read at `j`. -/
theorem hidden_apply (v0 v3 : FVec Ideal S2560x128 .f32) (v6 v9 : FVec Ideal S128x256 .bf16) (v13 : FVec Ideal S256 .f32)
    (p : Fin 2560) (j : Fin 256) :
    (truncf .bf16
        (addf
          (addf
            (matmul (F := Ideal) dot_S2560x128_S128x256_S2560x256_1_0_0_1_n_n none (truncf .bf16 v0 bitsLt_bf16_f32) v6
              (constant (F := Ideal) S2560x256 .f32 0x00000000#32))
            (matmul (F := Ideal) dot_S2560x128_S128x256_S2560x256_1_0_0_1_n_n none (truncf .bf16 v3 bitsLt_bf16_f32) v9
              (constant (F := Ideal) S2560x256 .f32 0x00000000#32)))
          (broadcastTo S2560x256 (shapeCast S1x256 v13 shapeCasts_S256_S1x256) broadcasts_S1x256_S2560x256))
        bitsLt_bf16_f32 : FVec Ideal S2560x256 .bf16) (ix2 p j)
      = Cert.EdgeMlp.hiddenAt (E := 2560) v0 v3 v6 v9 v13 p j := by
  rw [truncf_apply, addf_apply, addf_apply, layer1_apply, layer1_apply, broadcastTo_1b_ab_apply, shapeCast_a_1a_apply]
  rfl

/-! ## The stored value -/

/-- The value the body stores at row `p`, column `q` is the edge scorer's score of edge `p` for class `q`. -/
theorem pay_apply (v0 v3 : Vec Ideal S2560x128 .f32) (v6 v9 : Vec Ideal S128x256 .bf16) (v13 : Vec Ideal S256 .f32)
    (v18 : Vec Ideal S2560x32 .f32) (v20 : Vec Ideal S256x2 .bf16) (v23 : Vec Ideal S32x2 .bf16) (v27 : Vec Ideal S2 .f32)
    (p : Fin 2560) (q : Fin 2) :
    k0_pay1 (F := Ideal) v0 v3 v6 v9 v13 v18 v20 v23 v27 (ix2 p q)
      = Cert.EdgeMlp.scoreAt (E := 2560) v0 v3 v18 v6 v9 v13 v20 v23 v27 p q := by
  unfold k0_pay1
  simp only [shapeCast_self]
  rw [addf_apply, addf_apply, layer2_apply, embed_apply, broadcastTo_1b_ab_apply, shapeCast_a_1a_apply]
  unfold Cert.EdgeMlp.scoreAt
  refine congrArg₂ (· + ·) (congrArg₂ (· + ·) (Finset.sum_congr rfl fun j _ => ?_) (Finset.sum_congr rfl fun k _ => ?_)) rfl
  · rw [hidden_apply]
  · rw [truncf_apply]

end Cert.KernelIdeal.BodyValue

end
-- ==== Proof.KernelBlocks.lean ====
/-
  From blocks to the whole array: what the kernel's result array holds after the run, over the arrays the pallas_call finds.

  The grid has 250 points. Point `t` stages rows `2560 t … 2560 t + 2559` of the two gathered row arrays and of the edge
  embeddings, and the four weight arrays and two biases whole (their block index is 0 at every point), and writes back rows
  `2560 t … 2560 t + 2559` of the result. The body's stored value at row `p`, class `q` of its block is the score
  (`Cert.EdgeMlp.scoreAt`) of the staged blocks; a score depends on the per-edge arrays only through its own row, so it is
  the score of the whole arrays at row `2560 t + p`. Every row `r < 640000` lies in the block of point `r / 2560`, so the 250
  written blocks cover the result array, which therefore ends holding `Cert.EdgeMlp.score` of the arrays the region finds.

  The block lemmas are stated for an arbitrary family `X` of array contents and used at the family the region finds.
-/
import proofs.«412462_j38087769981264_2_alg».proof.Proof.Gen.KernelIdeal.Frame
import proofs.«412462_j38087769981264_2_alg».proof.Proof.Gen.KernelIdeal.Value
import proofs.«412462_j38087769981264_2_alg».proof.Proof.EdgeMlp
import proofs.«412462_j38087769981264_2_alg».proof.Proof.BodyValue
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

theorem hz2 : (![0, 0] : Fin 2 → Nat) = fun _ => 0 := funext fun a => by fin_cases a <;> rfl
theorem hz1 : (![0] : Fin 1 → Nat) = fun _ => 0 := funext fun a => by fin_cases a; rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The score of a block's row `p` is the score of the array's row `r` when the block's three per-edge rows are the
    array's rows `r` (the weights being the same arrays). -/
theorem scoreAt_rows {E B : Nat} (hu hv : (⟨2, ![E, 128]⟩ : Shape).Idx → EReal) (e : (⟨2, ![E, 32]⟩ : Shape).Idx → EReal)
    (hu' hv' : (⟨2, ![B, 128]⟩ : Shape).Idx → EReal) (e' : (⟨2, ![B, 32]⟩ : Shape).Idx → EReal)
    (A A' : (⟨2, ![128, 256]⟩ : Shape).Idx → EReal) (b1 : (⟨1, ![256]⟩ : Shape).Idx → EReal)
    (C : (⟨2, ![256, 2]⟩ : Shape).Idx → EReal) (D : (⟨2, ![32, 2]⟩ : Shape).Idx → EReal)
    (b2 : (⟨1, ![2]⟩ : Shape).Idx → EReal) (r : Fin E) (p : Fin B) (q : Fin 2)
    (h1 : ∀ k, hu' (ix2 p k) = hu (ix2 r k)) (h2 : ∀ k, hv' (ix2 p k) = hv (ix2 r k))
    (h3 : ∀ k, e' (ix2 p k) = e (ix2 r k)) :
    Cert.EdgeMlp.scoreAt hu' hv' e' A A' b1 C D b2 p q = Cert.EdgeMlp.scoreAt hu hv e A A' b1 C D b2 r q := by
  unfold Cert.EdgeMlp.scoreAt Cert.EdgeMlp.hiddenAt
  simp only [h1, h2, h3]

/-- Row `2560 t + p` of the edge arrays, for a point `t` of the 250 and a row `p` of its block. -/
def row (t : Fin cfg0.N) (p : Fin 2560) : Fin 640000 :=
  ⟨2560 * t.val + p.val, by have h := t.isLt; have e : cfg0.N = 250 := N_0; have := p.isLt; omega⟩

section
variable (c : Dev nD) (X : (b : Ref sig .tc) → Buf (Elt Ideal) ((c : Thread nD τ).loc b))

theorem rows0 (t : Fin cfg0.N) (p : Fin 2560) (k : Fin 128) :
    (((cfg0.win 0).blk t).view.read (Elt Ideal) (X (Pipeline.arrRef spec0 0)) : Vec Ideal S2560x128 .f32) (ix2 p k)
      = (X main_v0 : S640000x128.Idx → EReal) (ix2 (row t p) k) := by
  obtain ⟨e0, e1, -, -, -, -, -, -, -, -, -, -, -, -, -, -, -, -⟩ := idx_facts t
  rw [View.read_apply]
  show X main_v0 _ = X main_v0 _
  congr 1
  funext a
  apply Fin.ext
  match a with
  | ⟨0, _⟩ => show win0_0.index t (0 : Fin 2) * 2560 + 1 * p.val = 2560 * t.val + p.val; rw [e0]; omega
  | ⟨1, _⟩ => show win0_0.index t (1 : Fin 2) * 128 + 1 * k.val = k.val; rw [e1]; omega

theorem rows1 (t : Fin cfg0.N) (p : Fin 2560) (k : Fin 128) :
    (((cfg0.win 1).blk t).view.read (Elt Ideal) (X (Pipeline.arrRef spec0 1)) : Vec Ideal S2560x128 .f32) (ix2 p k)
      = (X main_v1 : S640000x128.Idx → EReal) (ix2 (row t p) k) := by
  obtain ⟨-, -, e0, e1, -, -, -, -, -, -, -, -, -, -, -, -, -, -⟩ := idx_facts t
  rw [View.read_apply]
  show X main_v1 _ = X main_v1 _
  congr 1
  funext a
  apply Fin.ext
  match a with
  | ⟨0, _⟩ => show win0_1.index t (0 : Fin 2) * 2560 + 1 * p.val = 2560 * t.val + p.val; rw [e0]; omega
  | ⟨1, _⟩ => show win0_1.index t (1 : Fin 2) * 128 + 1 * k.val = k.val; rw [e1]; omega

theorem rows2 (t : Fin cfg0.N) (p : Fin 2560) (k : Fin 32) :
    (((cfg0.win 2).blk t).view.read (Elt Ideal) (X (Pipeline.arrRef spec0 2)) : Vec Ideal S2560x32 .f32) (ix2 p k)
      = (X main_arg3 : S640000x32.Idx → EReal) (ix2 (row t p) k) := by
  obtain ⟨-, -, -, -, e0, e1, -, -, -, -, -, -, -, -, -, -, -, -⟩ := idx_facts t
  rw [View.read_apply]
  show X main_arg3 _ = X main_arg3 _
  congr 1
  funext a
  apply Fin.ext
  match a with
  | ⟨0, _⟩ => show win0_2.index t (0 : Fin 2) * 2560 + 1 * p.val = 2560 * t.val + p.val; rw [e0]; omega
  | ⟨1, _⟩ => show win0_2.index t (1 : Fin 2) * 32 + 1 * k.val = k.val; rw [e1]; omega

theorem whole3 (t : Fin cfg0.N) :
    (((cfg0.win 3).blk t).view.read (Elt Ideal) (X (Pipeline.arrRef spec0 3)) : Vec Ideal S128x256 .bf16)
      = (X main_v4 : S128x256.Idx → EReal) := by
  obtain ⟨-, -, -, -, -, -, e0, e1, -, -, -, -, -, -, -, -, -, -⟩ := idx_facts t
  funext x
  rw [View.read_apply]
  show X main_v4 _ = X main_v4 _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 256 + 1 * (x 1).val = (x 1).val; rw [e1]; omega

theorem whole4 (t : Fin cfg0.N) :
    (((cfg0.win 4).blk t).view.read (Elt Ideal) (X (Pipeline.arrRef spec0 4)) : Vec Ideal S128x256 .bf16)
      = (X main_v7 : S128x256.Idx → EReal) := by
  obtain ⟨-, -, -, -, -, -, -, -, e0, e1, -, -, -, -, -, -, -, -⟩ := idx_facts t
  funext x
  rw [View.read_apply]
  show X main_v7 _ = X main_v7 _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 256 + 1 * (x 1).val = (x 1).val; rw [e1]; omega

theorem whole5 (t : Fin cfg0.N) :
    (((cfg0.win 5).blk t).view.read (Elt Ideal) (X (Pipeline.arrRef spec0 5)) : Vec Ideal S256 .f32)
      = (X main_arg5 : S256.Idx → EReal) := by
  obtain ⟨-, -, -, -, -, -, -, -, -, -, e0, -, -, -, -, -, -, -⟩ := idx_facts t
  funext x
  rw [View.read_apply]
  show X main_arg5 _ = X main_arg5 _
  congr 1
  funext a
  apply Fin.ext
  match a with
  | ⟨0, _⟩ => show win0_5.index t (0 : Fin 1) * 256 + 1 * (x 0).val = (x 0).val; rw [e0]; omega

theorem whole6 (t : Fin cfg0.N) :
    (((cfg0.win 6).blk t).view.read (Elt Ideal) (X (Pipeline.arrRef spec0 6)) : Vec Ideal S256x2 .bf16)
      = (X main_v10 : S256x2.Idx → EReal) := by
  obtain ⟨-, -, -, -, -, -, -, -, -, -, -, e0, e1, -, -, -, -, -⟩ := idx_facts t
  funext x
  rw [View.read_apply]
  show X main_v10 _ = X main_v10 _
  congr 1
  funext a
  apply Fin.ext
  match a with
  | ⟨0, _⟩ => show win0_6.index t (0 : Fin 2) * 256 + 1 * (x 0).val = (x 0).val; rw [e0]; omega
  | ⟨1, _⟩ => show win0_6.index t (1 : Fin 2) * 2 + 1 * (x 1).val = (x 1).val; rw [e1]; omega

theorem whole7 (t : Fin cfg0.N) :
    (((cfg0.win 7).blk t).view.read (Elt Ideal) (X (Pipeline.arrRef spec0 7)) : Vec Ideal S32x2 .bf16)
      = (X main_v13 : S32x2.Idx → EReal) := by
  obtain ⟨-, -, -, -, -, -, -, -, -, -, -, -, -, e0, e1, -, -, -⟩ := idx_facts t
  funext x
  rw [View.read_apply]
  show X main_v13 _ = X main_v13 _
  congr 1
  funext a
  apply Fin.ext
  match a with
  | ⟨0, _⟩ => show win0_7.index t (0 : Fin 2) * 32 + 1 * (x 0).val = (x 0).val; rw [e0]; omega
  | ⟨1, _⟩ => show win0_7.index t (1 : Fin 2) * 2 + 1 * (x 1).val = (x 1).val; rw [e1]; omega

theorem whole8 (t : Fin cfg0.N) :
    (((cfg0.win 8).blk t).view.read (Elt Ideal) (X (Pipeline.arrRef spec0 8)) : Vec Ideal S2 .f32)
      = (X main_arg7 : S2.Idx → EReal) := by
  obtain ⟨-, -, -, -, -, -, -, -, -, -, -, -, -, -, -, e0, -, -⟩ := idx_facts t
  funext x
  rw [View.read_apply]
  show X main_arg7 _ = X main_arg7 _
  congr 1
  funext a
  apply Fin.ext
  match a with
  | ⟨0, _⟩ => show win0_8.index t (0 : Fin 1) * 2 + 1 * (x 0).val = (x 0).val; rw [e0]; omega

theorem emb9 (t : Fin cfg0.N) (p : Fin 2560) (q : Fin 2) :
    ((cfg0.win 9).blk t).view.emb (ix2 p q) = (ix2 (row t p) q : S640000x2.Idx) := by
  obtain ⟨-, -, -, -, -, -, -, -, -, -, -, -, -, -, -, -, e0, e1⟩ := idx_facts t
  funext a
  apply Fin.ext
  match a with
  | ⟨0, _⟩ => show win0_9.index t (0 : Fin 2) * 2560 + 1 * p.val = 2560 * t.val + p.val; rw [e0]; omega
  | ⟨1, _⟩ => show win0_9.index t (1 : Fin 2) * 2 + 1 * q.val = q.val; rw [e1]; omega

/-- The scores of all 640000 edges over the arrays the region finds. -/
def GX : S640000x2.Idx → EReal :=
  Cert.EdgeMlp.score (E := 640000) (X main_v0 : S640000x128.Idx → EReal) (X main_v1 : S640000x128.Idx → EReal)
    (X main_arg3 : S640000x32.Idx → EReal) (X main_v4 : S128x256.Idx → EReal) (X main_v7 : S128x256.Idx → EReal)
    (X main_arg5 : S256.Idx → EReal) (X main_v10 : S256x2.Idx → EReal) (X main_v13 : S32x2.Idx → EReal)
    (X main_arg7 : S2.Idx → EReal)

theorem block_eq (t : Fin cfg0.N) :
    (cfg0.win 9).cut (grid0.coords t)
      (k0_pay1 (F := Ideal)
        (((cfg0.win 0).blk t).view.read (Elt Ideal) (X (Pipeline.arrRef spec0 0)))
        (((cfg0.win 1).blk t).view.read (Elt Ideal) (X (Pipeline.arrRef spec0 1)))
        (((cfg0.win 3).blk t).view.read (Elt Ideal) (X (Pipeline.arrRef spec0 3)))
        (((cfg0.win 4).blk t).view.read (Elt Ideal) (X (Pipeline.arrRef spec0 4)))
        (((cfg0.win 5).blk t).view.read (Elt Ideal) (X (Pipeline.arrRef spec0 5)))
        (((cfg0.win 2).blk t).view.read (Elt Ideal) (X (Pipeline.arrRef spec0 2)))
        (((cfg0.win 6).blk t).view.read (Elt Ideal) (X (Pipeline.arrRef spec0 6)))
        (((cfg0.win 7).blk t).view.read (Elt Ideal) (X (Pipeline.arrRef spec0 7)))
        (((cfg0.win 8).blk t).view.read (Elt Ideal) (X (Pipeline.arrRef spec0 8))))
      = ((cfg0.win 9).blk t).view.read (Elt Ideal) (GX c X) := by
  funext j
  obtain ⟨p, q, rfl⟩ : ∃ (p : Fin 2560) (q : Fin 2), j = ix2 p q := ⟨j 0, j 1, eq_ix2 j⟩
  show k0_pay1 (F := Ideal) _ _ _ _ _ _ _ _ _ (ix2 p q) = GX c X (((cfg0.win 9).blk t).view.emb (ix2 p q))
  rw [whole3 c X t, whole4 c X t, whole5 c X t, whole6 c X t, whole7 c X t, whole8 c X t, emb9 t p q]
  refine (Cert.KernelIdeal.BodyValue.pay_apply _ _ _ _ _ _ _ _ _ p q).trans ?_
  unfold GX
  rw [Cert.EdgeMlp.score_ix2]
  exact scoreAt_rows _ _ _ _ _ _ _ _ _ _ _ _ (row t p) p q (fun k => rows0 c X t p k) (fun k => rows1 c X t p k) (fun k => rows2 c X t p k)

end

section
variable (m : (ℓ : Loc nD τ sig) → Buf (Elt Ideal) ℓ) (ρ : Dev nD → PrngReg)

/-- What point `t` writes back is block `t` of the scores over the arrays the region finds. -/
theorem flushed_eq (c : Dev nD) (t : Fin cfg0.N) :
    (dats m 0 c).flushed 9 t = ((cfg0.win 9).blk t).view.read (Elt Ideal) (GX c (V m c)) := by
  rw [flushed9]
  unfold out0_9
  rw [View.canon_unit_zero hz2]
  simp only [View.ld_unit_zero (S := S2560x128) hz2, View.ld_unit_zero (S := S128x256) hz2, View.ld_unit_zero (S := S256) hz1,
    View.ld_unit_zero (S := S2560x32) hz2, View.ld_unit_zero (S := S256x2) hz2, View.ld_unit_zero (S := S32x2) hz2, View.ld_unit_zero (S := S2) hz1]
  unfold iblk
  exact block_eq c (V m c) t

/-- An index of the result array is in point `t`'s block iff each coordinate is in the block's range on its axis. -/
theorem mem_blk (t : Fin cfg0.N) (i : S640000x2.Idx) :
    i ∈ ((cfg0.win 9).blk t).view.set ↔ ∀ a : Fin 2, win0_9.index t a * S2560x2.size a ≤ (i a).val ∧ (i a).val < win0_9.index t a * S2560x2.size a + S2560x2.size a := by
  show i ∈ ((View.whole main_v14).slice (win0_9.rect t)).set ↔ _
  rw [View.set_slice_whole, Rect.mem_set_unit]
  exact Iff.rfl

/-- Every row `r` of the result lies in the block of point `r / 2560`. -/
theorem cover (i : S640000x2.Idx) : ∃ t : Fin cfg0.N, (cfg0.win 9).flush t = true ∧ i ∈ ((cfg0.win 9).blk t).view.set := by
  have hi0 : (i 0).val < 640000 := (i 0).isLt
  have hi1 : (i 1).val < 2 := (i 1).isLt
  have hN : cfg0.N = 250 := N_0
  have ht : (i 0).val / 2560 < cfg0.N := by rw [hN]; omega
  refine ⟨⟨(i 0).val / 2560, ht⟩, flush0_9 _, ?_⟩
  rw [mem_blk]
  obtain ⟨-, -, -, -, -, -, -, -, -, -, -, -, -, -, -, -, e0, e1⟩ := idx_facts ⟨(i 0).val / 2560, ht⟩
  intro a
  match a with
  | ⟨0, _⟩ =>
    show win0_9.index ⟨(i 0).val / 2560, ht⟩ (0 : Fin 2) * 2560 ≤ (i 0).val ∧ (i 0).val < win0_9.index ⟨(i 0).val / 2560, ht⟩ (0 : Fin 2) * 2560 + 2560
    rw [e0]; show (i 0).val / 2560 * 2560 ≤ (i 0).val ∧ (i 0).val < (i 0).val / 2560 * 2560 + 2560; omega
  | ⟨1, _⟩ =>
    show win0_9.index ⟨(i 0).val / 2560, ht⟩ (1 : Fin 2) * 2 ≤ (i 1).val ∧ (i 1).val < win0_9.index ⟨(i 0).val / 2560, ht⟩ (1 : Fin 2) * 2 + 2
    rw [e1]; omega

/-- So after the run the result array holds the scores over the arrays the region finds. -/
theorem final (c : Dev nD) : (dats m 0 c).arrAt 9 cfg0.N = GX c (V m c) :=
  (dats m 0 c).arrAt_eq_of_cover 9 (GX c (V m c)) (fun t _ => flushed_eq m c t) (fun i => cover i)

end

end Cert.KernelIdeal.Whole
end
-- ==== Proof.IndexWrap.lean ====
/-
  How an index into the node table's 50000 rows is read.

  Both programs read an index the way NumPy does: a negative index counts from the end, so `a < 0` stands for row
  `a + 50000`. An index is ACCEPTED for an axis of 50000 rows when `-50000 ≤ a < 50000`; the wrapped index of an accepted
  index is a row number `0 ≤ w ≤ 49999`. Outside that range the reference's `h[src]` indexes out of range.
-/
import Idealize.ShloMosaic.Lib.ValueIdx
import Idealize.ShloMosaic.Lib.StableHlo.Predicate

noncomputable section

namespace Cert.IndexWrap

open Idealize.ShloMosaic Idealize.ShloMosaic.ValueIdx

/-- An index as NumPy reads it on an axis of 50000 rows: a negative index counts from the end. -/
def wrap (a : BitVec 32) : BitVec 32 := Scalar.select (IntOp.cmpi .slt a 0#32) (IntOp.addi a 50000#32) a

/-- The index is one NumPy accepts on an axis of 50000 rows: `-50000 ≤ a < 50000` as a signed word
    (`4294917296` is the 32-bit word of `-50000`). -/
def InRange (a : BitVec 32) : Prop :=
  IntOp.cmpi .sge a 4294917296#32 = 1#1 ∧ IntOp.cmpi .slt a 50000#32 = 1#1

/-- The wrapped indices of all 640000 edges, as the `[640000 × 1]` column of start indices a row gather takes. -/
def wrapCol (x : IVec ⟨1, ![640000]⟩ 32) : IVec ⟨2, ![640000, 1]⟩ 32 :=
  fun i => wrap (x (ix1 (⟨(i 0).val, idx2_lt0 i⟩ : Fin 640000)))

/-! ## Signed compares of 32-bit words as compares of their values -/

/-- A signed `<` of two words answers 1 exactly when the first word's value is below the second's. -/
theorem cmpi_slt_iff (x y : BitVec 32) : IntOp.cmpi .slt x y = 1#1 ↔ x.toInt < y.toInt := by
  show BitVec.ofBool (x.slt y) = 1#1 ↔ _
  rw [StableHlo.Predicate.ofBool_eq_one_iff, BitVec.slt, decide_eq_true_eq]
/-- A signed `≥` likewise. -/
theorem cmpi_sge_iff (x y : BitVec 32) : IntOp.cmpi .sge x y = 1#1 ↔ y.toInt ≤ x.toInt := by
  show BitVec.ofBool (y.sle x) = 1#1 ↔ _
  rw [StableHlo.Predicate.ofBool_eq_one_iff, BitVec.sle, decide_eq_true_eq]
/-- A signed `≤` likewise. -/
theorem cmpi_sle_iff (x y : BitVec 32) : IntOp.cmpi .sle x y = 1#1 ↔ x.toInt ≤ y.toInt := by
  show BitVec.ofBool (x.sle y) = 1#1 ↔ _
  rw [StableHlo.Predicate.ofBool_eq_one_iff, BitVec.sle, decide_eq_true_eq]

/-- An accepted index is a word whose value lies in `[-50000, 50000)`. -/
theorem inRange_iff (a : BitVec 32) : InRange a ↔ (-50000 ≤ a.toInt ∧ a.toInt < 50000) := by
  unfold InRange
  rw [cmpi_sge_iff, cmpi_slt_iff]
  have e1 : (4294917296#32 : BitVec 32).toInt = -50000 := by decide
  have e2 : (50000#32 : BitVec 32).toInt = 50000 := by decide
  rw [e1, e2]

/-- The wrapped index of an accepted index is a row number: `a + 50000` does not leave the 32-bit range when
    `-50000 ≤ a < 0`, and lands in `[0, 50000)`; a non-negative accepted index is kept. -/
theorem wrap_toInt {a : BitVec 32} (h : InRange a) : 0 ≤ (wrap a).toInt ∧ (wrap a).toInt ≤ 49999 := by
  rw [inRange_iff] at h
  have e0 : (0#32 : BitVec 32).toInt = 0 := by decide
  by_cases hn : a.toInt < 0
  · have hc : IntOp.cmpi .slt a 0#32 = 1#1 := (cmpi_slt_iff _ _).2 (by rw [e0]; exact hn)
    have hw : wrap a = a + 50000#32 := by unfold wrap; rw [hc]; exact select_one _ _
    have e : (a + 50000#32).toInt = a.toInt + 50000 := by
      rw [BitVec.toInt_add]
      have e2 : (50000#32 : BitVec 32).toInt = 50000 := by decide
      rw [e2]
      have := BitVec.toInt_lt (x := a); have := BitVec.le_toInt (x := a)
      simp only [Int.bmod]; omega
    rw [hw, e]; omega
  · have hc : ¬ IntOp.cmpi .slt a 0#32 = 1#1 := fun hc => hn (by have := (cmpi_slt_iff _ _).1 hc; rwa [e0] at this)
    have hw : wrap a = a := by unfold wrap; rw [eq_zero_of_ne_one hc]; exact select_zero _ _
    rw [hw]; omega

/-- So the bounds test `0 ≤ w` of a filling gather passes on it … -/
theorem wrap_ge {a : BitVec 32} (h : InRange a) : IntOp.cmpi .sge (wrap a) 0#32 = 1#1 := by
  rw [cmpi_sge_iff]; have e0 : (0#32 : BitVec 32).toInt = 0 := by decide
  rw [e0]; exact (wrap_toInt h).1
/-- … and so does `w ≤ 49999`. -/
theorem wrap_le {a : BitVec 32} (h : InRange a) : IntOp.cmpi .sle (wrap a) 49999#32 = 1#1 := by
  rw [cmpi_sle_iff]; have e0 : (49999#32 : BitVec 32).toInt = 49999 := by decide
  rw [e0]; exact (wrap_toInt h).2

end Cert.IndexWrap

end
-- ==== Proof.Staged.lean ====
/-
  What the arrays staged by the kernel's windows hold when the kernel region is entered.

  Before the region the program splits the first layer's weight matrix `W1 : [256, 256]` into its two blocks of 128
  columns and the second layer's `W2 : [2, 288]` into its first 256 and last 32 columns, transposes each block and
  casts it to bf16; at the extended reals a cast is the identity, so the four staged arrays are the transposed blocks
  `firstHalfT W1`, `secondHalfT W1`, `hiddenPartT W2`, `embedPartT W2`.

  It also takes, twice, the rows of the node table at an index vector: a negative index is wrapped by the table's
  50000 rows, the rows at the wrapped indices are gathered, and a row whose wrapped index lies outside `[0, 49999]`
  is filled with NaN. When every index is accepted (`-50000 ≤ a < 50000`) every wrapped index is a row number, no row
  is filled, and the array is the plain gather at the column of wrapped indices.
-/
import proofs.«412462_j38087769981264_2_alg».proof.Proof.Gen.KernelIdeal.Frame
import proofs.«412462_j38087769981264_2_alg».proof.Proof.EdgeMlp
import proofs.«412462_j38087769981264_2_alg».proof.Proof.IndexWrap
import Idealize.ShloMosaic.Lib.ValueIdx
import Idealize.ShloMosaic.Lib.Pipeline.Value
import Idealize.ShloMosaic.Lib.StableHlo.Run
import Idealize.ShloMosaic.Lib.ReduceAll

noncomputable section

namespace Cert.KernelIdeal.Staged

open Cert.KernelIdeal Cert.KernelIdeal.Gen Idealize.ShloMosaic Idealize.ShloMosaic.TcCoe Idealize.ShloMosaic.ValueIdx

variable (m : (ℓ : Loc nD τ sig) → Buf (Elt Ideal) ℓ)

/-! ## The four weight arrays

Each is a block of columns of a torch-style weight matrix, transposed, and cast to bf16 — at the extended reals the
cast is the identity, so entry `(k, j)` of the staged array is entry `(j, offset + k)` of the matrix. -/

/-- Columns `0 … 127` of `W1`, transposed. -/
private theorem firstHalf_read (W : S256x256.Idx → EReal) :
    truncf (F := Ideal) .bf16 (transpose S128x256 [1, 0] (extractStridedSlice S256x128 ![0, 0] W slices_S256x256_S256x128_0_0)
      transposes_S256x128_S128x256_1_0) bitsLt_bf16_f32 = Cert.EdgeMlp.firstHalfT W := by
  funext i
  rw [truncf_apply]
  refine (transpose_apply [1, 0] _ transposes_S256x128_S128x256_1_0 i
    (ix2 (⟨(i 1).val, idx2_lt1 i⟩ : Fin 256) (⟨(i 0).val, idx2_lt0 i⟩ : Fin 128)) (fun b => match b with
      | ⟨0, _⟩ => rfl
      | ⟨1, _⟩ => rfl)).trans ?_
  exact extractStridedSlice_apply ![0, 0] W slices_S256x256_S256x128_0_0 _
    (ix2 (⟨(i 1).val, idx2_lt1 i⟩ : Fin 256) (Cert.EdgeMlp.lo ⟨(i 0).val, idx2_lt0 i⟩)) (fun a => match a with
      | ⟨0, _⟩ => by show (i 1).val = 0 + (i 1).val; omega
      | ⟨1, _⟩ => by show (i 0).val = 0 + (i 0).val; omega)

/-- Columns `128 … 255` of `W1`, transposed. -/
private theorem secondHalf_read (W : S256x256.Idx → EReal) :
    truncf (F := Ideal) .bf16 (transpose S128x256 [1, 0] (extractStridedSlice S256x128 ![0, 128] W slices_S256x256_S256x128_0_128)
      transposes_S256x128_S128x256_1_0) bitsLt_bf16_f32 = Cert.EdgeMlp.secondHalfT W := by
  funext i
  rw [truncf_apply]
  refine (transpose_apply [1, 0] _ transposes_S256x128_S128x256_1_0 i
    (ix2 (⟨(i 1).val, idx2_lt1 i⟩ : Fin 256) (⟨(i 0).val, idx2_lt0 i⟩ : Fin 128)) (fun b => match b with
      | ⟨0, _⟩ => rfl
      | ⟨1, _⟩ => rfl)).trans ?_
  exact extractStridedSlice_apply ![0, 128] W slices_S256x256_S256x128_0_128 _
    (ix2 (⟨(i 1).val, idx2_lt1 i⟩ : Fin 256) (Cert.EdgeMlp.hi ⟨(i 0).val, idx2_lt0 i⟩)) (fun a => match a with
      | ⟨0, _⟩ => by show (i 1).val = 0 + (i 1).val; omega
      | ⟨1, _⟩ => by show 128 + (i 0).val = 128 + (i 0).val; rfl)

/-- Columns `0 … 255` of `W2`, transposed. -/
private theorem hiddenPart_read (W : S2x288.Idx → EReal) :
    truncf (F := Ideal) .bf16 (transpose S256x2 [1, 0] (extractStridedSlice S2x256 ![0, 0] W slices_S2x288_S2x256_0_0)
      transposes_S2x256_S256x2_1_0) bitsLt_bf16_f32 = Cert.EdgeMlp.hiddenPartT W := by
  funext i
  rw [truncf_apply]
  refine (transpose_apply [1, 0] _ transposes_S2x256_S256x2_1_0 i
    (ix2 (⟨(i 1).val, idx2_lt1 i⟩ : Fin 2) (⟨(i 0).val, idx2_lt0 i⟩ : Fin 256)) (fun b => match b with
      | ⟨0, _⟩ => rfl
      | ⟨1, _⟩ => rfl)).trans ?_
  exact extractStridedSlice_apply ![0, 0] W slices_S2x288_S2x256_0_0 _
    (ix2 (⟨(i 1).val, idx2_lt1 i⟩ : Fin 2) (Cert.EdgeMlp.hid ⟨(i 0).val, idx2_lt0 i⟩)) (fun a => match a with
      | ⟨0, _⟩ => by show (i 1).val = 0 + (i 1).val; omega
      | ⟨1, _⟩ => by show (i 0).val = 0 + (i 0).val; omega)

/-- Columns `256 … 287` of `W2`, transposed. -/
private theorem embedPart_read (W : S2x288.Idx → EReal) :
    truncf (F := Ideal) .bf16 (transpose S32x2 [1, 0] (extractStridedSlice S2x32 ![0, 256] W slices_S2x288_S2x32_0_256)
      transposes_S2x32_S32x2_1_0) bitsLt_bf16_f32 = Cert.EdgeMlp.embedPartT W := by
  funext i
  rw [truncf_apply]
  refine (transpose_apply [1, 0] _ transposes_S2x32_S32x2_1_0 i
    (ix2 (⟨(i 1).val, idx2_lt1 i⟩ : Fin 2) (⟨(i 0).val, idx2_lt0 i⟩ : Fin 32)) (fun b => match b with
      | ⟨0, _⟩ => rfl
      | ⟨1, _⟩ => rfl)).trans ?_
  exact extractStridedSlice_apply ![0, 256] W slices_S2x288_S2x32_0_256 _
    (ix2 (⟨(i 1).val, idx2_lt1 i⟩ : Fin 2) (Cert.EdgeMlp.emb ⟨(i 0).val, idx2_lt0 i⟩)) (fun a => match a with
      | ⟨0, _⟩ => by show (i 1).val = 0 + (i 1).val; omega
      | ⟨1, _⟩ => by show 256 + (i 0).val = 256 + (i 0).val; rfl)

/-! ### The weight arrays as the region finds them

Each is written by three host operations in a row — slice, transpose, cast — from an argument no operation writes. -/

theorem w1a_eq (c : Dev nD) : (V m c main_v4 : S128x256.Idx → EReal) = Cert.EdgeMlp.firstHalfT (m ((c : Thread nD τ).loc main_arg4)) := by
  refine Eq.trans ?_ (firstHalf_read (m ((c : Thread nD τ).loc main_arg4)))
  dsimp only [V]
  simp only [hostOps0, hostOps0_1, hostOps0_2, List.flatten_cons, List.flatten_nil, List.append_nil, List.cons_append, List.nil_append]
  after_results_simp

theorem w1b_eq (c : Dev nD) : (V m c main_v7 : S128x256.Idx → EReal) = Cert.EdgeMlp.secondHalfT (m ((c : Thread nD τ).loc main_arg4)) := by
  refine Eq.trans ?_ (secondHalf_read (m ((c : Thread nD τ).loc main_arg4)))
  dsimp only [V]
  simp only [hostOps0, hostOps0_1, hostOps0_2, List.flatten_cons, List.flatten_nil, List.append_nil, List.cons_append, List.nil_append]
  after_results_simp

theorem w2a_eq (c : Dev nD) : (V m c main_v10 : S256x2.Idx → EReal) = Cert.EdgeMlp.hiddenPartT (m ((c : Thread nD τ).loc main_arg6)) := by
  refine Eq.trans ?_ (hiddenPart_read (m ((c : Thread nD τ).loc main_arg6)))
  dsimp only [V]
  simp only [hostOps0, hostOps0_1, hostOps0_2, List.flatten_cons, List.flatten_nil, List.append_nil, List.cons_append, List.nil_append]
  after_results_simp

theorem w2b_eq (c : Dev nD) : (V m c main_v13 : S32x2.Idx → EReal) = Cert.EdgeMlp.embedPartT (m ((c : Thread nD τ).loc main_arg6)) := by
  refine Eq.trans ?_ (embedPart_read (m ((c : Thread nD τ).loc main_arg6)))
  dsimp only [V]
  simp only [hostOps0, hostOps0_1, hostOps0_2, List.flatten_cons, List.flatten_nil, List.append_nil, List.cons_append, List.nil_append]
  after_results_simp

/-! ## The two gathered row arrays

Taking the rows of the node table at an index vector `x` is, as host operations: wrap a negative index by the table's 50000
rows, gather the rows at the wrapped indices, and put NaN in every row whose wrapped index is outside `[0, 49999]`. -/

/-- The wrapped indices as the column of start indices the gather takes. -/
private abbrev startCol (x : IVec S640000 32) : IVec S640000x1 32 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 50000#32))) x)

/-- Per row: is the start index inside `[0, 49999]`? The conjunction over the row's one column. -/
private abbrev inBounds (idx : IVec S640000x1 32) : IVec S640000 1 :=
  Host.reduce IntOp.andi
    (andi (cmpi .sge idx (broadcastInDim S640000x1 ![] bcast_S_S640000x1 (constantI S_ 32 0#32)))
      (cmpi .sle idx (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- The rows taken, NaN where the start index is out of bounds. -/
private abbrev takeRows (T : FVec Ideal S50000x128 .f32) (x : IVec S640000 32) : FVec Ideal S640000x128 .f32 :=
  select (broadcastInDim S640000x128 ![0] bcast_S640000_S640000x128_0 (inBounds (startCol x)))
    (Host.gather gather_S50000x128_S640000x1_S640000x128_1_0_n_n_0_1_1128 T (startCol x))
    (broadcastInDim S640000x128 ![] bcast_S_S640000x128 (constant (F := Ideal) S_ .f32 0x7FC00000#32))

/-- The start-index column is the column of wrapped indices. -/
private theorem startCol_eq (x : IVec S640000 32) : startCol x = Cert.IndexWrap.wrapCol x := by
  funext i
  refine (broadcastInDim_apply _ bcast_S640000_S640000x1_0 _ i (ix1 (⟨(i 0).val, idx2_lt0 i⟩ : Fin 640000)) (fun a => match a with
    | ⟨0, _⟩ => by show (i 0).val = if (640000 : Nat) = 1 then 0 else (i 0).val; rw [if_neg (by decide)])).trans ?_
  rfl

/-- A fold by `and` that starts at 1 and meets only 1s ends at 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- When every index is accepted, every row's start index is in bounds. -/
private theorem inBounds_wrapCol (x : IVec S640000 32) (h : ∀ i, Cert.IndexWrap.InRange (x i)) (j : S640000.Idx) :
    inBounds (Cert.IndexWrap.wrapCol x) j = 1#1 := by
  unfold inBounds
  rw [Host.reduce_eq_foldl]
  refine foldl_andi_one _ (fun i => ?_) _
  show IntOp.andi (IntOp.cmpi .sge (Cert.IndexWrap.wrap (x (ix1 (⟨(i 0).val, idx2_lt0 i⟩ : Fin 640000)))) 0#32)
    (IntOp.cmpi .sle (Cert.IndexWrap.wrap (x (ix1 (⟨(i 0).val, idx2_lt0 i⟩ : Fin 640000)))) 49999#32) = 1#1
  rw [Cert.IndexWrap.wrap_ge (h _), Cert.IndexWrap.wrap_le (h _)]
  decide

/-- So no row is filled: the rows taken are the rows gathered at the wrapped indices. -/
private theorem takeRows_eq (T : FVec Ideal S50000x128 .f32) (x : IVec S640000 32) (h : ∀ i, Cert.IndexWrap.InRange (x i)) :
    takeRows T x = Host.gather gather_S50000x128_S640000x1_S640000x128_1_0_n_n_0_1_1128 T (Cert.IndexWrap.wrapCol x) := by
  unfold takeRows
  rw [startCol_eq]
  funext i
  rw [select_apply]
  have hm : broadcastInDim S640000x128 ![0] bcast_S640000_S640000x128_0 (inBounds (Cert.IndexWrap.wrapCol x)) i = 1#1 :=
    (broadcastInDim_apply _ bcast_S640000_S640000x128_0 _ i (ix1 (⟨(i 0).val, idx2_lt0 i⟩ : Fin 640000)) (fun a => match a with
      | ⟨0, _⟩ => by show (i 0).val = if (640000 : Nat) = 1 then 0 else (i 0).val; rw [if_neg (by decide)])).trans
      (inBounds_wrapCol x h _)
  rw [hm]
  exact select_one _ _

/-- A cast along an equation between a type and itself is the identity. -/
private theorem cast_self {α : Type} (h : α = α) (a : α) : cast h a = a := (cast_eq h a).trans rfl

/-! ### The row arrays as the region finds them

Each is the last value of one call of the take, twenty-three host operations from the table and one index vector,
neither of which any operation writes. -/

theorem hu_eq (c : Dev nD) (h : ∀ i, Cert.IndexWrap.InRange (m ((c : Thread nD τ).loc main_arg1) i)) :
    (V m c main_v0 : S640000x128.Idx → EReal)
      = Host.gather gather_S50000x128_S640000x1_S640000x128_1_0_n_n_0_1_1128 (m ((c : Thread nD τ).loc main_arg0)) (Cert.IndexWrap.wrapCol (m ((c : Thread nD τ).loc main_arg1))) := by
  refine Eq.trans ?_ (takeRows_eq (m ((c : Thread nD τ).loc main_arg0)) (m ((c : Thread nD τ).loc main_arg1)) h)
  dsimp only [V]
  simp only [hostOps0, hostOps0_1, hostOps0_2, List.flatten_cons, List.flatten_nil, List.append_nil, List.cons_append, List.nil_append]
  after_results_simp
  simp only [cast_cast, cast_self]

theorem hv_eq (c : Dev nD) (h : ∀ i, Cert.IndexWrap.InRange (m ((c : Thread nD τ).loc main_arg2) i)) :
    (V m c main_v1 : S640000x128.Idx → EReal)
      = Host.gather gather_S50000x128_S640000x1_S640000x128_1_0_n_n_0_1_1128 (m ((c : Thread nD τ).loc main_arg0)) (Cert.IndexWrap.wrapCol (m ((c : Thread nD τ).loc main_arg2))) := by
  refine Eq.trans ?_ (takeRows_eq (m ((c : Thread nD τ).loc main_arg0)) (m ((c : Thread nD τ).loc main_arg2)) h)
  dsimp only [V]
  simp only [hostOps0, hostOps0_1, hostOps0_2, List.flatten_cons, List.flatten_nil, List.append_nil, List.cons_append, List.nil_append]
  after_results_simp
  simp only [cast_cast, cast_self]

end Cert.KernelIdeal.Staged

end
-- ==== Proof.KernelValue.lean ====
/-
  The kernel's run, read: under accepted indices its result array is the edge scorer of the rows of the node table
  gathered at the wrapped source and destination indices.

  The region finds, in the arrays its windows stage, the two row arrays `jnp.take` gathered and the four pre-split,
  pre-transposed weight arrays. When every source and destination index is accepted (`-50000 ≤ i < 50000`) the filling
  gather never fills, so the row arrays are the plain gathers at the wrapped indices; the weight arrays are the halves of
  `W1`'s and the two parts of `W2`'s columns, transposed (the cast to bf16 changes nothing over the extended reals). So the
  scores over the arrays the region finds are `Cert.EdgeMlp.scores` of the argument arrays.
-/
import proofs.«412462_j38087769981264_2_alg».proof.Proof.KernelBlocks
import proofs.«412462_j38087769981264_2_alg».proof.Proof.Staged
import proofs.«412462_j38087769981264_2_alg».proof.Proof.IndexWrap

noncomputable section

open Idealize.ShloMosaic Idealize.ShloMosaic.TcCoe Idealize.SL.Sem Idealize.ShloMosaic.ValueIdx

namespace Cert.KernelIdeal.Whole

open Cert.KernelIdeal Cert.KernelIdeal.Gen Cert.KernelIdeal.Value

/-- The scores over a family of arrays are the scorer of whatever its nine staged arrays are. -/
theorem GX_congr (c : Dev nD) (X : (b : Ref sig .tc) → Buf (Elt Ideal) ((c : Thread nD τ).loc b))
    (hu hv : S640000x128.Idx → EReal) (e : S640000x32.Idx → EReal) (A A' : S128x256.Idx → EReal) (b1 : S256.Idx → EReal)
    (C : S256x2.Idx → EReal) (D : S32x2.Idx → EReal) (b2 : S2.Idx → EReal)
    (h0 : (X main_v0 : S640000x128.Idx → EReal) = hu) (h1 : (X main_v1 : S640000x128.Idx → EReal) = hv)
    (h2 : (X main_arg3 : S640000x32.Idx → EReal) = e) (h3 : (X main_v4 : S128x256.Idx → EReal) = A)
    (h4 : (X main_v7 : S128x256.Idx → EReal) = A') (h5 : (X main_arg5 : S256.Idx → EReal) = b1)
    (h6 : (X main_v10 : S256x2.Idx → EReal) = C) (h7 : (X main_v13 : S32x2.Idx → EReal) = D)
    (h8 : (X main_arg7 : S2.Idx → EReal) = b2) :
    GX c X = Cert.EdgeMlp.score (E := 640000) hu hv e A A' b1 C D b2 := by
  subst h0 h1 h2 h3 h4 h5 h6 h7 h8
  rfl

variable (m : (ℓ : Loc nD τ sig) → Buf (Elt Ideal) ℓ) (ρ : Dev nD → PrngReg)

/-- The kernel's result: the scorer of the rows of the node table gathered at the wrapped source and destination indices. -/
def result (c : Dev nD) : S640000x2.Idx → EReal :=
  Cert.EdgeMlp.scores (E := 640000)
    (Host.gather gather_S50000x128_S640000x1_S640000x128_1_0_n_n_0_1_1128 (m ((c : Thread nD τ).loc main_arg0))
      (Cert.IndexWrap.wrapCol (m ((c : Thread nD τ).loc main_arg1))))
    (Host.gather gather_S50000x128_S640000x1_S640000x128_1_0_n_n_0_1_1128 (m ((c : Thread nD τ).loc main_arg0))
      (Cert.IndexWrap.wrapCol (m ((c : Thread nD τ).loc main_arg2))))
    (m ((c : Thread nD τ).loc main_arg3)) (m ((c : Thread nD τ).loc main_arg4)) (m ((c : Thread nD τ).loc main_arg5))
    (m ((c : Thread nD τ).loc main_arg6)) (m ((c : Thread nD τ).loc main_arg7))

/-- Under accepted indices the scores over the arrays the region finds are `result`. -/
theorem GX_eq (c : Dev nD) (h1 : ∀ i, Cert.IndexWrap.InRange (m ((c : Thread nD τ).loc main_arg1) i))
    (h2 : ∀ i, Cert.IndexWrap.InRange (m ((c : Thread nD τ).loc main_arg2) i)) :
    GX c (V m c) = result m c :=
  GX_congr c (V m c) _ _ _ _ _ _ _ _ _ (Cert.KernelIdeal.Staged.hu_eq m c h1) (Cert.KernelIdeal.Staged.hv_eq m c h2)
    (V_main_arg3 m c) (Cert.KernelIdeal.Staged.w1a_eq m c) (Cert.KernelIdeal.Staged.w1b_eq m c) (V_main_arg5 m c)
    (Cert.KernelIdeal.Staged.w2a_eq m c) (Cert.KernelIdeal.Staged.w2b_eq m c) (V_main_arg7 m c)

/-- The kernel's run, read: the result array at `result`, the arguments unchanged. -/
theorem run (hr : ∀ c : Dev nD, (∀ i, Cert.IndexWrap.InRange (m ((c : Thread nD τ).loc main_arg1) i))
      ∧ (∀ i, Cert.IndexWrap.InRange (m ((c : Thread nD τ).loc main_arg2) i))) :
    θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono
    (fun r h c => ⟨((h c).1.trans (final m c)).trans (GX_eq m c (hr c).1 (hr c).2), (h c).2⟩)
    (run_blocks m ρ)

end Cert.KernelIdeal.Whole

end
-- ==== Proof.RefValue.lean ====
/-
  The reference program's result is the edge scorer of the two gathered row arrays.

  The reference reads each edge's two endpoint indices with a negative index counting from the end of the node table,
  gathers the rows of the node table at the source and at the destination indices, lays the two gathered rows side
  by side into a row of 256, multiplies by the transposed first weight matrix and adds the first bias; it then lays
  that hidden row of 256 beside the edge's 32 embedding numbers, multiplies the row of 288 by the transposed second
  weight matrix and adds the second bias. Read at an index (r, c), a product with a row that is two pieces laid side
  by side is the sum over the first piece plus the sum over the second piece — the one law used, which asks nothing
  of the summands' finiteness. Here: the start indices the two gathers take are the wrapped index columns; the
  hidden row at (r, j) is the scorer's hidden unit; the result at (r, c) is the scorer's score.
-/
import proofs.«412462_j38087769981264_2_alg».proof.Proof.Gen.ReferenceIdeal.Read
import proofs.«412462_j38087769981264_2_alg».proof.Proof.EdgeMlp
import proofs.«412462_j38087769981264_2_alg».proof.Proof.IndexWrap
import Idealize.ShloMosaic.Lib.ValueIdx
import Idealize.ShloMosaic.Lib.Pipeline.Value

noncomputable section

open scoped BigOperators

namespace Cert.ReferenceIdeal.RefValue

open Cert.ReferenceIdeal Cert.ReferenceIdeal.Read Idealize.ShloMosaic Idealize.ShloMosaic.ValueIdx

/-! ## The start indices of the two gathers -/

/-- The row of the index column that the source start index at `i` is read from. -/
theorem idx_v5_eq (i : S640000x1.Idx) : idx_main_v5 i = ix1 (⟨(i 0).val, idx2_lt0 i⟩ : Fin 640000) :=
  funext fun a => Fin.ext (by match a with | ⟨0, _⟩ => rfl)

/-- The row of the index column that the destination start index at `i` is read from. -/
theorem idx_v12_eq (i : S640000x1.Idx) : idx_main_v12 i = ix1 (⟨(i 0).val, idx2_lt0 i⟩ : Fin 640000) :=
  funext fun a => Fin.ext (by match a with | ⟨0, _⟩ => rfl)

/-- The start indices of the gather at the source endpoints are the wrapped source indices. -/
theorem startIdx_eq (x : IVec S640000 32) : val_main_v5 (F := Ideal) x = Cert.IndexWrap.wrapCol x := by
  funext i
  rw [val_main_v5_apply, val_main_v4_apply, val_main_v1_apply, val_main_v3_apply, val_main_v0_apply,
    val_main_v2_apply, val_main_c_apply, val_main_c_0_apply, idx_v5_eq]
  rfl

/-- The start indices of the gather at the destination endpoints are the wrapped destination indices. -/
theorem startIdx_eq' (x : IVec S640000 32) : val_main_v12 (F := Ideal) x = Cert.IndexWrap.wrapCol x := by
  funext i
  rw [val_main_v12_apply, val_main_v11_apply, val_main_v8_apply, val_main_v10_apply, val_main_v7_apply,
    val_main_v9_apply, val_main_c_1_apply, val_main_c_2_apply, idx_v12_eq]
  rfl

/-! ## The hidden row -/

/-- The gathered source rows, as the reference's stage names them. -/
theorem v6_eq (x0 : FVec Ideal S50000x128 .f32) (x1 : IVec S640000 32) :
    val_main_v6 (F := Ideal) x0 x1
      = Host.gather gather_S50000x128_S640000x1_S640000x128_1_0_n_n_0_1_1128 x0 (Cert.IndexWrap.wrapCol x1) := by
  unfold val_main_v6
  rw [startIdx_eq]

/-- The gathered destination rows, as the reference's stage names them. -/
theorem v13_eq (x0 : FVec Ideal S50000x128 .f32) (x2 : IVec S640000 32) :
    val_main_v13 (F := Ideal) x0 x2
      = Host.gather gather_S50000x128_S640000x1_S640000x128_1_0_n_n_0_1_1128 x0 (Cert.IndexWrap.wrapCol x2) := by
  unfold val_main_v13
  rw [startIdx_eq']

/-- The row of 256 at a position of its first half is the source row there. -/
theorem v14_lo (x0 : FVec Ideal S50000x128 .f32) (x1 x2 : IVec S640000 32) (r : Fin 640000) (k : Fin 128) :
    val_main_v14 (F := Ideal) x0 x1 x2 (ix2 r (Cert.EdgeMlp.lo k)) = val_main_v6 (F := Ideal) x0 x1 (ix2 r k) := by
  unfold val_main_v14
  refine concatenate_pair_apply_left (t := S640000x256) (s₁ := S640000x128) (s₂ := S640000x128) 1 _ _ _ _ rfl
    (ix2 r k) (fun b => ?_)
  match b with
  | ⟨0, _⟩ => rfl
  | ⟨1, _⟩ => rfl

/-- The row of 256 at a position of its second half is the destination row there. -/
theorem v14_hi (x0 : FVec Ideal S50000x128 .f32) (x1 x2 : IVec S640000 32) (r : Fin 640000) (k : Fin 128) :
    val_main_v14 (F := Ideal) x0 x1 x2 (ix2 r (Cert.EdgeMlp.hi k)) = val_main_v13 (F := Ideal) x0 x2 (ix2 r k) := by
  unfold val_main_v14
  refine concatenate_pair_apply_right (t := S640000x256) (s₁ := S640000x128) (s₂ := S640000x128) 1 _ _ _ _ rfl rfl
    (ix2 r k) (fun b hb => ?_) ?_
  · match b with
    | ⟨0, _⟩ => rfl
    | ⟨1, _⟩ => exact absurd rfl hb
  · show k.val + 128 = 128 + k.val
    omega

/-- Where the first product reads its left operand: row `r`, position `k`. -/
theorem lidx16_eq (r : Fin 640000) (j k : Fin 256) : lidx_main_v16 (ix2 r j) k = ix2 r k :=
  funext fun a => Fin.ext (by match a with | ⟨0, _⟩ => rfl | ⟨1, _⟩ => rfl)

/-- Where the first product reads its right operand: position `k`, hidden unit `j`. -/
theorem ridx16_eq (r : Fin 640000) (j k : Fin 256) : ridx_main_v16 (ix2 r j) k = ix2 k j :=
  funext fun a => Fin.ext (by match a with | ⟨0, _⟩ => rfl | ⟨1, _⟩ => rfl)

/-- The transposed first weight matrix at `(k, j)` is the matrix at `(j, k)`. -/
theorem idx15_eq (k j : Fin 256) : idx_main_v15 (ix2 k j) = ix2 j k :=
  funext fun a => Fin.ext (by match a with | ⟨0, _⟩ => rfl | ⟨1, _⟩ => rfl)

/-- The first bias, broadcast over the edges, reads entry `j` at `(r, j)`. -/
theorem idx_bias1_eq (r : Fin 640000) (j : Fin 256) : idx_main_v17 (idx_main_v18 (ix2 r j)) = ix1 j :=
  funext fun a => Fin.ext (by match a with | ⟨0, _⟩ => rfl)

/-- The hidden row at `(r, j)` is the scorer's hidden unit `j` of edge `r`, over the two gathered row arrays. -/
theorem hidden_at (x0 : FVec Ideal S50000x128 .f32) (x1 x2 : IVec S640000 32) (x4 : FVec Ideal S256x256 .f32)
    (x5 : FVec Ideal S256 .f32) (r : Fin 640000) (j : Fin 256) :
    val_main_v19 (F := Ideal) x0 x1 x2 x4 x5 (ix2 r j)
      = Cert.EdgeMlp.hiddenAt (E := 640000) (val_main_v6 (F := Ideal) x0 x1) (val_main_v13 (F := Ideal) x0 x2)
          (Cert.EdgeMlp.firstHalfT x4) (Cert.EdgeMlp.secondHalfT x4) x5 r j := by
  rw [val_main_v19_apply, val_main_v16_apply, val_main_v18_apply, val_main_v17_apply, idx_bias1_eq,
    Cert.EdgeMlp.sum_halves]
  simp only [lidx16_eq, ridx16_eq, v14_lo, v14_hi, val_main_v15_apply, idx15_eq]
  rfl

/-! ## The scores -/

/-- The row of 288 at a position of its first 256 is the hidden row there. -/
theorem v20_hid (x0 : FVec Ideal S50000x128 .f32) (x1 x2 : IVec S640000 32) (x3 : FVec Ideal S640000x32 .f32)
    (x4 : FVec Ideal S256x256 .f32) (x5 : FVec Ideal S256 .f32) (r : Fin 640000) (j : Fin 256) :
    val_main_v20 (F := Ideal) x0 x1 x2 x3 x4 x5 (ix2 r (Cert.EdgeMlp.hid j))
      = val_main_v19 (F := Ideal) x0 x1 x2 x4 x5 (ix2 r j) := by
  unfold val_main_v20
  refine concatenate_pair_apply_left (t := S640000x288) (s₁ := S640000x256) (s₂ := S640000x32) 1 _ _ _ _ rfl
    (ix2 r j) (fun b => ?_)
  match b with
  | ⟨0, _⟩ => rfl
  | ⟨1, _⟩ => rfl

/-- The row of 288 at a position of its last 32 is the edge's embedding there. -/
theorem v20_emb (x0 : FVec Ideal S50000x128 .f32) (x1 x2 : IVec S640000 32) (x3 : FVec Ideal S640000x32 .f32)
    (x4 : FVec Ideal S256x256 .f32) (x5 : FVec Ideal S256 .f32) (r : Fin 640000) (k : Fin 32) :
    val_main_v20 (F := Ideal) x0 x1 x2 x3 x4 x5 (ix2 r (Cert.EdgeMlp.emb k)) = x3 (ix2 r k) := by
  unfold val_main_v20
  refine concatenate_pair_apply_right (t := S640000x288) (s₁ := S640000x256) (s₂ := S640000x32) 1 _ _ _ _ rfl rfl
    (ix2 r k) (fun b hb => ?_) ?_
  · match b with
    | ⟨0, _⟩ => rfl
    | ⟨1, _⟩ => exact absurd rfl hb
  · show k.val + 256 = 256 + k.val
    omega

/-- Where the second product reads its left operand: row `r`, position `k`. -/
theorem lidx22_eq (r : Fin 640000) (c : Fin 2) (k : Fin 288) : lidx_main_v22 (ix2 r c) k = ix2 r k :=
  funext fun a => Fin.ext (by match a with | ⟨0, _⟩ => rfl | ⟨1, _⟩ => rfl)

/-- Where the second product reads its right operand: position `k`, class `c`. -/
theorem ridx22_eq (r : Fin 640000) (c : Fin 2) (k : Fin 288) : ridx_main_v22 (ix2 r c) k = ix2 k c :=
  funext fun a => Fin.ext (by match a with | ⟨0, _⟩ => rfl | ⟨1, _⟩ => rfl)

/-- The transposed second weight matrix at `(k, c)` is the matrix at `(c, k)`. -/
theorem idx21_eq (k : Fin 288) (c : Fin 2) : idx_main_v21 (ix2 k c) = ix2 c k :=
  funext fun a => Fin.ext (by match a with | ⟨0, _⟩ => rfl | ⟨1, _⟩ => rfl)

/-- The second bias, broadcast over the edges, reads entry `c` at `(r, c)`. -/
theorem idx_bias2_eq (r : Fin 640000) (c : Fin 2) : idx_main_v23 (idx_main_v24 (ix2 r c)) = ix1 c :=
  funext fun a => Fin.ext (by match a with | ⟨0, _⟩ => rfl)

/-- The result at `(r, c)` is the scorer's score of edge `r` for class `c`, over the two gathered row arrays. -/
theorem score_at (x0 : FVec Ideal S50000x128 .f32) (x1 x2 : IVec S640000 32) (x3 : FVec Ideal S640000x32 .f32)
    (x4 : FVec Ideal S256x256 .f32) (x5 : FVec Ideal S256 .f32) (x6 : FVec Ideal S2x288 .f32) (x7 : FVec Ideal S2 .f32)
    (r : Fin 640000) (c : Fin 2) :
    val_main_v25 (F := Ideal) x0 x1 x2 x3 x4 x5 x6 x7 (ix2 r c)
      = Cert.EdgeMlp.scoreAt (E := 640000) (val_main_v6 (F := Ideal) x0 x1) (val_main_v13 (F := Ideal) x0 x2) x3
          (Cert.EdgeMlp.firstHalfT x4) (Cert.EdgeMlp.secondHalfT x4) x5
          (Cert.EdgeMlp.hiddenPartT x6) (Cert.EdgeMlp.embedPartT x6) x7 r c := by
  rw [val_main_v25_apply, val_main_v22_apply, val_main_v24_apply, val_main_v23_apply, idx_bias2_eq,
    Cert.EdgeMlp.sum_hid_emb]
  simp only [lidx22_eq, ridx22_eq, v20_hid, v20_emb, val_main_v21_apply, idx21_eq, hidden_at]
  rfl

/-- The reference's result is the scorer of the rows gathered at the wrapped source and destination indices. -/
theorem result_eq (x0 : FVec Ideal S50000x128 .f32) (x1 x2 : IVec S640000 32) (x3 : FVec Ideal S640000x32 .f32)
    (x4 : FVec Ideal S256x256 .f32) (x5 : FVec Ideal S256 .f32) (x6 : FVec Ideal S2x288 .f32) (x7 : FVec Ideal S2 .f32) :
    val_main_v25 (F := Ideal) x0 x1 x2 x3 x4 x5 x6 x7
      = Cert.EdgeMlp.scores (E := 640000)
          (Host.gather gather_S50000x128_S640000x1_S640000x128_1_0_n_n_0_1_1128 x0 (Cert.IndexWrap.wrapCol x1))
          (Host.gather gather_S50000x128_S640000x1_S640000x128_1_0_n_n_0_1_1128 x0 (Cert.IndexWrap.wrapCol x2))
          x3 x4 x5 x6 x7 := by
  funext i
  obtain ⟨r, c, rfl⟩ : ∃ (r : Fin 640000) (c : Fin 2), i = ix2 r c := ⟨i 0, i 1, eq_ix2 i⟩
  rw [score_at, v6_eq, v13_eq]
  rfl

end Cert.ReferenceIdeal.RefValue

end
-- ==== Proof.IndexRange.lean ====
/-
  The certificate's precondition, decoded for the two index arrays.

  The precondition is one truth value: the conjunction of six "every entry is finite" tests of the float arguments and,
  for each of the two index arrays `src` and `dst`, of "every entry `a` satisfies `-50000 ≤ a` and `a < 50000`" (signed
  compares against the two constants broadcast to all 640000 positions, joined entrywise by `and`, then reduced by `and`
  over the one axis). If the whole conjunction is 1, each conjunct is 1; a reduction by `and` that is 1 met only 1s; and an
  entrywise `and` that is 1 at position `i` has both compares 1 at `i`. The broadcast constants read `-50000` (the word
  `4294917296`) and `50000` at every position, so the two compares at `i` are exactly the two halves of "the index at `i`
  is accepted on an axis of 50000 rows". Nothing here looks at a float: the six finiteness conjuncts are dropped unopened.
-/
import proofs.«412462_j38087769981264_2_alg».proof.Pre_finite_inputs
import proofs.«412462_j38087769981264_2_alg».proof.Proof.IndexWrap
import Idealize.ShloMosaic.Lib.ValueIdx
import Idealize.ShloMosaic.Lib.ReduceAll
import Idealize.ShloMosaic.Lib.Affine
import Idealize.ShloMosaic.Lib.Pipeline.Value
import Idealize.ShloMosaic.Lib.StableHlo.Predicate

noncomputable section

namespace Cert.IndexRange

open Idealize.ShloMosaic Idealize.ShloMosaic.ValueIdx Cert.Pre_finite_inputs

/-- A shape of rank 0 has one index. -/
private instance subsingleton_scalar_idx : Subsingleton S_.Idx := ⟨fun _ _ => funext fun d => d.elim0⟩

/-- The constant `w` broadcast from a scalar to all 640000 positions reads `w` at each of them. -/
private theorem bcast_const_apply [Cert.Pre_finite_inputs.Facts] (w : BitVec 32) (i : S640000.Idx) :
    broadcastInDim S640000 ![] Facts.bcast_S_S640000 (constantI S_ 32 w) i = w := rfl

/-- One index array: if "for all positions, `-50000 ≤ a` and `a < 50000`" came out 1, every entry is an accepted index. -/
private theorem inRange_of_all [Cert.Pre_finite_inputs.Facts] (a : IVec S640000 32)
    (h : Host.reduce IntOp.andi
          (andi (cmpi .sge a (broadcastInDim S640000 ![] Facts.bcast_S_S640000 (constantI S_ 32 4294917296#32)))
            (cmpi .slt a (broadcastInDim S640000 ![] Facts.bcast_S_S640000 (constantI S_ 32 50000#32))))
          (constantI S_ 1 1#1) Facts.reducesTo_S640000_S_d0 Facts.h_S_ ix0 = 1#1)
    (i : S640000.Idx) : Cert.IndexWrap.InRange (a i) := by
  -- the reduction by `and` met a 1 at position `i`
  have hi := Host.reduce_andi_all _ _ _ _ _ h i
  -- that entry is the `and` of the two compares at `i`
  have hi' : IntOp.andi
      (IntOp.cmpi .sge (a i) (broadcastInDim S640000 ![] Facts.bcast_S_S640000 (constantI S_ 32 4294917296#32) i))
      (IntOp.cmpi .slt (a i) (broadcastInDim S640000 ![] Facts.bcast_S_S640000 (constantI S_ 32 50000#32) i)) = 1#1 := hi
  rw [bcast_const_apply, bcast_const_apply] at hi'
  exact IntOp.andi_eq_one.1 hi'

theorem inRange_of_pre {F : FTy → Type} [FloatOps F] [Cert.Pre_finite_inputs.Facts]
    (a0 : FVec F S50000x128 .f32) (a1 a2 : IVec S640000 32) (a3 : FVec F S640000x32 .f32) (a4 : FVec F S256x256 .f32)
    (a5 : FVec F S256 .f32) (a6 : FVec F S2x288 .f32) (a7 : FVec F S2 .f32)
    (h : Cert.Pre_finite_inputs.fn (F := F) a0 a1 a2 a3 a4 a5 a6 a7 = fun _ => 1#1) :
    (∀ i : S640000.Idx, Cert.IndexWrap.InRange (a1 i)) ∧ (∀ i : S640000.Idx, Cert.IndexWrap.InRange (a2 i)) := by
  -- the predicate's one value, as the chain of conjunctions that defines it
  have h0 := congrFun h ValueIdx.ix0
  dsimp only [fn, fn_part1, fn_part2] at h0
  -- the last conjunct is the test of `dst`, the one before it the test of `src`; the rest is the six float tests
  obtain ⟨h1, hdst⟩ := IntOp.andi_eq_one.1 h0
  obtain ⟨_, hsrc⟩ := IntOp.andi_eq_one.1 h1
  exact ⟨inRange_of_all a1 hsrc, inRange_of_all a2 hdst⟩

end Cert.IndexRange

end
-- ==== Proof.lean ====
/- The certificate of a fused two-layer edge scorer against its jnp reference, over the extended reals.

   Both programs gather, for each of 640000 edges, the rows of the node table `h : [50000, 128]` at the edge's source and
   destination index, read as NumPy reads an index (a negative index counts from the end). The reference concatenates the two
   rows, multiplies by `W1ᵀ`, adds `b1`, concatenates the result with the edge embedding, multiplies by `W2ᵀ` and adds `b2`.
   The kernel splits `W1` and `W2` by columns instead, so each concatenation becomes a sum of two products; over the extended
   reals the two are equal because a sum over 256 (288) positions is the sum over its first 128 (256) plus the sum over the
   rest — a law of any additive commutative monoid, so nothing is asked of the floats' finiteness. The casts to bf16 are the
   identity over the extended reals.

   The one difference is the gather: the kernel's `jnp.take` fills a row with NaN when the (wrapped) index is outside
   `[0, 49999]`, the reference's `h[src]` clamps it. So the claim is stated under the evident domain of the reference's
   indexing, `-50000 ≤ src, dst < 50000` (outside it `h[src]` indexes out of range): there the fill never happens and both
   programs gather the same rows.

   Proof/EdgeMlp.lean: the scorer as one function and the sum-splitting law. Proof/IndexWrap.lean, Proof/IndexRange.lean: the
   accepted indices, and that the precondition gives them. Proof/BodyValue.lean: the kernel body's stored value at an index.
   Proof/Staged.lean: the arrays the kernel's host operations prepare. Proof/KernelBlocks.lean, Proof/KernelValue.lean: the
   kernel's result array. Proof/RefValue.lean: the reference's result. Here: the five claims. -/
import proofs.«412462_j38087769981264_2_alg».proof.Defs
import proofs.«412462_j38087769981264_2_alg».proof.Proof.Gen.Kernel
import proofs.«412462_j38087769981264_2_alg».proof.Proof.Gen.Kernel.Skeleton
import proofs.«412462_j38087769981264_2_alg».proof.Proof.Gen.Kernel.Launch
import proofs.«412462_j38087769981264_2_alg».proof.Proof.Gen.Kernel.Points
import proofs.«412462_j38087769981264_2_alg».proof.Proof.Gen.Kernel.Frame
import proofs.«412462_j38087769981264_2_alg».proof.Proof.Gen.KernelIdeal
import proofs.«412462_j38087769981264_2_alg».proof.Proof.Gen.KernelIdeal.Skeleton
import proofs.«412462_j38087769981264_2_alg».proof.Proof.Gen.KernelIdeal.Launch
import proofs.«412462_j38087769981264_2_alg».proof.Proof.Gen.KernelIdeal.Points
import proofs.«412462_j38087769981264_2_alg».proof.Proof.Gen.KernelIdeal.Frame
import proofs.«412462_j38087769981264_2_alg».proof.Proof.Gen.ReferenceIdeal
import proofs.«412462_j38087769981264_2_alg».proof.Proof.Gen.Pre_finite_inputs
import proofs.«412462_j38087769981264_2_alg».proof.Proof.Gen.KernelIdeal.Value
import proofs.«412462_j38087769981264_2_alg».proof.Proof.Gen.ReferenceIdeal.Run
import proofs.«412462_j38087769981264_2_alg».proof.Proof.Gen.ReferenceIdeal.Read
import proofs.«412462_j38087769981264_2_alg».proof.Proof.KernelValue
import proofs.«412462_j38087769981264_2_alg».proof.Proof.RefValue
import proofs.«412462_j38087769981264_2_alg».proof.Proof.IndexRange
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a sequence of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Under the precondition every source and destination index is accepted, so the kernel's result array is the scorer of the
    rows gathered at the wrapped indices (Proof/KernelValue.lean); the reference's is the same scorer of the same rows
    (Proof/RefValue.lean), the arguments agreeing. -/
theorem algebraic : Cert.algebraic_KernelIdeal_ReferenceIdeal := by
  intro m ρ m' ρ' hpre hagree
  have hr : ∀ c : Dev Cert.KernelIdeal.nD,
      (∀ i, Cert.IndexWrap.InRange (m ((c.tc : Thread Cert.KernelIdeal.nD Cert.KernelIdeal.τ).loc Cert.KernelIdeal.main_arg1) i))
      ∧ (∀ i, Cert.IndexWrap.InRange (m ((c.tc : Thread Cert.KernelIdeal.nD Cert.KernelIdeal.τ).loc Cert.KernelIdeal.main_arg2) i)) :=
    fun c => Cert.IndexRange.inRange_of_pre _ _ _ _ _ _ _ _ (hpre c)
  refine ⟨fun c => Cert.KernelIdeal.Whole.result m c, Cert.KernelIdeal.Whole.run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v25_eq, Cert.ReferenceIdeal.RefValue.result_eq, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
